-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_cst_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_cst_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_cst_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096 : Shape := ⟨1, ![4096]⟩
abbrev S4096x32x32 : Shape := ⟨3, ![4096, 32, 32]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x32x32 : S_.BroadcastsInDim S4096x32x32 (![] : Fin 0 → Fin S4096x32x32.rank)
  reducesTo_S4096x32x32_S_d0_1_2 : S4096x32x32.ReducesTo [0, 1, 2] S_
  bcast_S_S8192 : S_.BroadcastsInDim S8192 (![] : Fin 0 → Fin S8192.rank)
  reducesTo_S8192_S_d0 : S8192.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_arg2 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg1 main_v34
  let main_c_13 : IVec S_ 1 := constantI S_ 1 1#1
  let main_v36 : IVec S_ 1 := (fun x v => Host.reduce IntOp.andi x v reducesTo_S4096_S_d0 h_S_) main_v35 main_c_13
  let main_v37 : IVec S_ 1 := andi main_v33 main_v36
  let main_c_14 : IVec S_ 32 := constantI S_ 32 256#32
  let main_v38 : IVec S4096 32 := broadcastInDim S4096 ![] bcast_S_S4096 main_c_14
  let main_v39 : IVec S4096 1 := cmpi .slt main_arg1 main_v38
  let main_c_15 : IVec S_ 1 := constantI S_ 1 1#1
  let main_v40 : IVec S_ 1 := (fun x v => Host.reduce IntOp.andi x v reducesTo_S4096_S_d0 h_S_) main_v39 main_c_15
  let main_v41 : IVec S_ 1 := andi main_v37 main_v40
  let main_c_16 : IVec S_ 32 := constantI S_ 32 0#32
  let main_v42 : IVec S4096 32 := broadcastInDim S4096 ![] bcast_S_S4096 main_c_16
  let main_v43 : IVec S4096 1 := cmpi .sge main_arg2 main_v42
  let main_c_17 : IVec S_ 1 := constantI S_ 1 1#1
  let main_v44 : IVec S_ 1 := (fun x v => Host.reduce IntOp.andi x v reducesTo_S4096_S_d0 h_S_) main_v43 main_c_17
  let main_v45 : IVec S_ 1 := andi main_v41 main_v44
  let main_c_18 : IVec S_ 32 := constantI S_ 32 256#32
  let main_v46 : IVec S4096 32 := broadcastInDim S4096 ![] bcast_S_S4096 main_c_18
  let main_v47 : IVec S4096 1 := cmpi .slt main_arg2 main_v46
  let main_c_19 : IVec S_ 1 := constantI S_ 1 1#1
  let main_v48 : IVec S_ 1 := (fun x v => Host.reduce IntOp.andi x v reducesTo_S4096_S_d0 h_S_) main_v47 main_c_19
  let main_v49 : IVec S_ 1 := andi main_v45 main_v48
  main_v49

def fn_part1 {F : FTy → Type} [FloatOps F] (main_arg1 : IVec S4096 32) (main_arg2 : IVec S4096 32) (main_arg6 : FVec F S8192 .f32) (main_arg7 : FVec F S8192 .f32) (main_arg8 : FVec F S8192 .f32) (main_v13 : IVec S_ 1) (main_v16 : IVec S4096x32x32 1) : IVec S_ 1 :=
  let main_c_5 : IVec S_ 1 := constantI S_ 1 1#1
  let main_v17 : IVec S_ 1 := (fun x v => Host.reduce IntOp.andi x v reducesTo_S4096x32x32_S_d0_1_2 h_S_) main_v16 main_c_5
  let main_v18 : IVec S_ 1 := andi main_v13 main_v17
  let main_v19 : FVec F S8192 .f32 := Host.absf main_arg6
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg7
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg8
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg1 main_arg2 main_v33

def fn {F : FTy → Type} [FloatOps F] (main_arg0 : FVec F S8192x1024 .f32) (main_arg1 : IVec S4096 32) (main_arg2 : IVec S4096 32) (main_arg3 : FVec F S4096x32x32 .f32) (main_arg4 : FVec F S4096x32x32 .f32) (main_arg5 : FVec F S4096x32x32 .f32) (main_arg6 : FVec F S8192 .f32) (main_arg7 : FVec F S8192 .f32) (main_arg8 : FVec F S8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x32x32 .f32 := Host.absf main_arg3
  let main_cst_0 : FVec F S_ .f32 := constant S_ .f32 0x7F800000#32
  let main_v5 : FVec F S4096x32x32 .f32 := broadcastInDim S4096x32x32 ![] bcast_S_S4096x32x32 main_cst_0
  let main_v6 : IVec S4096x32x32 1 := cmpf .olt main_v4 main_v5
  let main_c_1 : IVec S_ 1 := constantI S_ 1 1#1
  let main_v7 : IVec S_ 1 := (fun x v => Host.reduce IntOp.andi x v reducesTo_S4096x32x32_S_d0_1_2 h_S_) main_v6 main_c_1
  let main_v8 : IVec S_ 1 := andi main_v3 main_v7
  let main_v9 : FVec F S4096x32x32 .f32 := Host.absf main_arg4
  let main_cst_2 : FVec F S_ .f32 := constant S_ .f32 0x7F800000#32
  let main_v10 : FVec F S4096x32x32 .f32 := broadcastInDim S4096x32x32 ![] bcast_S_S4096x32x32 main_cst_2
  let main_v11 : IVec S4096x32x32 1 := cmpf .olt main_v9 main_v10
  let main_c_3 : IVec S_ 1 := constantI S_ 1 1#1
  let main_v12 : IVec S_ 1 := (fun x v => Host.reduce IntOp.andi x v reducesTo_S4096x32x32_S_d0_1_2 h_S_) main_v11 main_c_3
  let main_v13 : IVec S_ 1 := andi main_v8 main_v12
  let main_v14 : FVec F S4096x32x32 .f32 := Host.absf main_arg5
  let main_cst_4 : FVec F S_ .f32 := constant S_ .f32 0x7F800000#32
  let main_v15 : FVec F S4096x32x32 .f32 := broadcastInDim S4096x32x32 ![] bcast_S_S4096x32x32 main_cst_4
  let main_v16 : IVec S4096x32x32 1 := cmpf .olt main_v14 main_v15
  fn_part1 (F := F) main_arg1 main_arg2 main_arg6 main_arg7 main_arg8 main_v13 main_v16
-- ==== Kernel.lean ====
abbrev S8192x1024 : Shape := ⟨2, ![8192, 1024]⟩
abbrev S4096 : Shape := ⟨1, ![4096]⟩
abbrev S4096x32x32 : Shape := ⟨3, ![4096, 32, 32]⟩
abbrev S8192 : Shape := ⟨1, ![8192]⟩
abbrev S_ : Shape := ⟨0, ![]⟩
abbrev S256x32x256x32 : Shape := ⟨4, ![256, 32, 256, 32]⟩
abbrev S4096x1 : Shape := ⟨2, ![4096, 1]⟩
abbrev S4096x2 : Shape := ⟨2, ![4096, 2]⟩
abbrev S8192x8192 : Shape := ⟨2, ![8192, 8192]⟩
abbrev S8192x1 : Shape := ⟨2, ![8192, 1]⟩
abbrev S1024x2048 : Shape := ⟨2, ![1024, 2048]⟩
abbrev S1024x1 : Shape := ⟨2, ![1024, 1]⟩
abbrev S1024x1024 : Shape := ⟨2, ![1024, 1024]⟩
abbrev S2048x1024 : Shape := ⟨2, ![2048, 1024]⟩

abbrev nBuf : Space → Nat
  | .hbm => 42
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096, .i32⟩
  | .hbm, ⟨2, _⟩ => ⟨S4096, .i32⟩
  | .hbm, ⟨3, _⟩ => ⟨S4096x32x32, .f32⟩
  | .hbm, ⟨4, _⟩ => ⟨S4096x32x32, .f32⟩
  | .hbm, ⟨5, _⟩ => ⟨S4096x32x32, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S4096x32x32, .f32⟩
  | .hbm, ⟨10, _⟩ => ⟨S4096x32x32, .f32⟩
  | .hbm, ⟨11, _⟩ => ⟨S4096x32x32, .f32⟩
  | .hbm, ⟨12, _⟩ => ⟨S4096x32x32, .f32⟩
  | .hbm, ⟨13, _⟩ => ⟨S_, .f32⟩
  | .hbm, ⟨14, _⟩ => ⟨S256x32x256x32, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x1, .i32⟩
  | .hbm, ⟨31, _⟩ => ⟨S4096x2, .i32⟩
  | .hbm, ⟨32, _⟩ => ⟨S256x32x256x32, .f32⟩
  | .hbm, ⟨33, _⟩ => ⟨S8192x8192, .f32⟩
  | .hbm, ⟨34, _⟩ => ⟨S8192x8192, .bf16⟩
  | .hbm, ⟨35, _⟩ => ⟨S8192x1024, .bf16⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S8192x1024, .bf16⟩
  | .local _ .vmem, ⟨3, _⟩ => ⟨S1024x1, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  let c0 : Index := 0#32
  ![v2.toNat, 0]
def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_2 : BitVec 32 := 0#32
  let v10 : BitVec 1 := Scalar.cmpi .ne v9 c0_i32_2
  v10

def k0_cond2 (i : grid0.Coords) : BitVec 1 :=
  let arg1 : BitVec 32 := BitVec.ofNat 32 (i 1).val
  let c0_i32_3 : BitVec 32 := 0#32
  let v11 : BitVec 1 := Scalar.cmpi .ne arg1 c0_i32_3
  let v12 : BitVec 32 := Scalar.extui v11
  let c0_i32_4 : BitVec 32 := 0#32
  let v13 : BitVec 1 := Scalar.cmpi .ne v12 c0_i32_4
  v13

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4096x32x32_S4096x32x32_0_2_1 : S4096x32x32.Transposes [0, 2, 1] S4096x32x32
  bcast_S_S256x32x256x32 : S_.BroadcastsInDim S256x32x256x32 (![] : Fin 0 → Fin S256x32x256x32.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S256x32x256x32_S8192x8192 : S256x32x256x32.ShapeCasts S8192x8192
  bitsLt_bf16_f32 : FTy.bits .bf16 < FTy.bits .f32
  shapeCasts_S8192_S8192x1 : S8192.ShapeCasts S8192x1
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  scatter_S256x32x256x32_S4096x2_S4096x32x32_12_02_02_1_wf : ScatterDims.WF S256x32x256x32 S4096x2 S4096x32x32 [1, 2] [0, 2] [0, 2] 1
  dot_S1024x2048_S2048x1024_S1024x1024_1_0_0_1_n_n_wf : DotDims.WF S1024x2048 S2048x1024 S1024x1024 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x1024.size a ≤ S8192x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .bf16 = 32 ∨ (Rect.block (s := S8192x8192) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def scatter_S256x32x256x32_S4096x2_S4096x32x32_12_02_02_1 : ScatterDims S256x32x256x32 S4096x2 S4096x32x32 where
  updateWindowDims := [1, 2]
  insertedWindowDims := [0, 2]
  scatterDimsToOperandDims := [0, 2]
  indexVectorDim := 1
  wf := scatter_S256x32x256x32_S4096x2_S4096x32x32_12_02_02_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v20) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S4096 : Shape := ⟨1, ![4096]⟩
abbrev S4096x32x32 : Shape := ⟨3, ![4096, 32, 32]⟩
abbrev S8192 : Shape := ⟨1, ![8192]⟩
abbrev S256x32x1024 : Shape := ⟨3, ![256, 32, 1024]⟩
abbrev S_ : Shape := ⟨0, ![]⟩
abbrev S4096x1 : Shape := ⟨2, ![4096, 1]⟩
abbrev S4096x32x1024 : Shape := ⟨3, ![4096, 32, 1024]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096, .i32⟩
  | .hbm, ⟨2, _⟩ => ⟨S4096, .i32⟩
  | .hbm, ⟨3, _⟩ => ⟨S4096x32x32, .f32⟩
  | .hbm, ⟨4, _⟩ => ⟨S4096x32x32, .f32⟩
  | .hbm, ⟨5, _⟩ => ⟨S4096x32x32, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S4096x32x32, .f32⟩
  | .hbm, ⟨10, _⟩ => ⟨S4096x32x32, .f32⟩
  | .hbm, ⟨11, _⟩ => ⟨S4096x32x32, .f32⟩
  | .hbm, ⟨12, _⟩ => ⟨S256x32x1024, .f32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x32x1024, .f32⟩
  | .hbm, ⟨22, _⟩ => ⟨S4096x32x1024, .f32⟩
  | .hbm, ⟨23, _⟩ => ⟨S_, .f32⟩
  | .hbm, ⟨24, _⟩ => ⟨S256x32x1024, .f32⟩
  | .hbm, ⟨25, _⟩ => ⟨S4096x1, .i32⟩
  | .hbm, ⟨26, _⟩ => ⟨S256x32x1024, .f32⟩
  | .hbm, ⟨27, _⟩ => ⟨S8192x1024, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩

abbrev nD : Nat := 1
abbrev τ : Topo := Topo.v7x

variable {F : FTy → Type} [FloatOps F]

class Facts₀ : Prop where
  shapeCasts_S8192x1024_S256x32x1024 : S8192x1024.ShapeCasts S256x32x1024
  bcast_S_S4096 : S_.BroadcastsInDim S4096 (![] : Fin 0 → Fin S4096.rank)
  bcast_S4096_S4096x1_0 : S4096.BroadcastsInDim S4096x1 (![0] : Fin 1 → Fin S4096x1.rank)
  bcast_S_S256x32x1024 : S_.BroadcastsInDim S256x32x1024 (![] : Fin 0 → Fin S256x32x1024.rank)
  shapeCasts_S256x32x1024_S8192x1024 : S256x32x1024.ShapeCasts S8192x1024
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  gather_S256x32x1024_S4096x1_S4096x32x1024_12_0_n_n_0_1_1321024_wf : GatherDims.WF S256x32x1024 S4096x1 S4096x32x1024 [1, 2] [0] [] [0] [] 1 ![1, 32, 1024]
  dot_S4096x32x32_S4096x32x1024_S4096x32x1024_1_1_2_2_0_0_wf : DotDims.WF S4096x32x32 S4096x32x1024 S4096x32x1024 [1] [1] [2] [2] [0] [0]
  scatter_S256x32x1024_S4096x1_S4096x32x1024_12_0_0_1_wf : ScatterDims.WF S256x32x1024 S4096x1 S4096x32x1024 [1, 2] [0] [0] 1

variable [Facts₀]

def gather_S256x32x1024_S4096x1_S4096x32x1024_12_0_n_n_0_1_1321024 : GatherDims S256x32x1024 S4096x1 S4096x32x1024 where
  offsetDims := [1, 2]
  collapsedSliceDims := [0]
  operandBatchingDims := []
  startIndicesBatchingDims := []
  startIndexMap := [0]
  indexVectorDim := 1
  sliceSizes := ![1, 32, 1024]
  wf := gather_S256x32x1024_S4096x1_S4096x32x1024_12_0_n_n_0_1_1321024_wf
def dot_S4096x32x32_S4096x32x1024_S4096x32x1024_1_1_2_2_0_0 : DotDims S4096x32x32 S4096x32x1024 S4096x32x1024 where
  lhsContracting := [1]
  rhsContracting := [1]
  lhsNonContracting := [2]
  rhsNonContracting := [2]
  lhsBatch := [0]
  rhsBatch := [0]
  wf := dot_S4096x32x32_S4096x32x1024_S4096x32x1024_1_1_2_2_0_0_wf
def scatter_S256x32x1024_S4096x1_S4096x32x1024_12_0_0_1 : ScatterDims S256x32x1024 S4096x1 S4096x32x1024 where
  updateWindowDims := [1, 2]
  insertedWindowDims := [0]
  scatterDimsToOperandDims := [0]
  indexVectorDim := 1
  wf := scatter_S256x32x1024_S4096x1_S4096x32x1024_12_0_0_1_wf

class Facts : Prop extends Facts₀ where

variable [Facts]
-- ==== Proof.Spec.lean ====
/-
  The mathematics both programs compute, stated once, over plain indices.

  An edge `e` of the block graph carries a 32 x 32 weight block sampled as
  `v[e, i, j] = eps_w[e, i, j] * exp(log_var[e, i, j]) + mean[e, i, j]`, joins input node `cg e` to output node
  `rg e` (both in `[0, 256)`), and contributes to output row `32 * rg e + j` the sum over `i` of
  `v[e, i, j] * x[32 * cg e + i, b]`.  Summing the edges that end in a row's node and adding the sampled bias
  `eps_b * exp(b_log_var) + b_mean` of the row gives the EDGE-WISE form (`edgeAt`).

  The DENSE form first adds, for every pair of a row `R = 32 r + j` and a column `K = 32 c + i`, the weights of
  the edges from node `c` to node `r` into one entry `W[R, K]` (`denseW`), then multiplies that 8192 x 8192
  matrix with `x` and adds the bias (`denseAt`).

  The two agree whenever the weights and `x` are real numbers: products distribute over the finite sums of real
  numbers, and each edge has exactly one input node, so the double sum over (node, edge into the node) is the
  single sum over edges (`denseAt_eq_edgeAt`).  On the extended reals distributivity needs that finiteness,
  which is why the equivalence is stated for finite inputs.
-/
import Idealize.ShloMosaic.PureOps.Ideal
import Idealize.ShloMosaic.Lib.ValueIdx

noncomputable section

namespace Cert.Spec

open Idealize.ShloMosaic Idealize.ShloMosaic.ValueIdx

/-- The shapes of the arguments: `x`, an index vector, a per-edge weight tensor, a per-row vector. -/
abbrev SX : Shape := ⟨2, ![8192, 1024]⟩
abbrev SE : Shape := ⟨1, ![4096]⟩
abbrev SW : Shape := ⟨3, ![4096, 32, 32]⟩
abbrev SB : Shape := ⟨1, ![8192]⟩

/-- The sampled weight of edge `e` from input lane `i` to output lane `j`. -/
def edgeW (wm wlv ew : SW.Idx → EReal) (e : Fin 4096) (i j : Fin 32) : EReal :=
  ew (ix3 e i j) * Ideal.exp (wlv (ix3 e i j)) + wm (ix3 e i j)

/-- The sampled bias of output row `R`. -/
def biasAt (bm blv eb : SB.Idx → EReal) (R : Fin 8192) : EReal :=
  eb (ix1 R) * Ideal.exp (blv (ix1 R)) + bm (ix1 R)

/-- A row (or column) `R = 32 * node + lane` of the dense matrix: its node and its lane. -/
def nodeOf (R : Fin 8192) : Fin 256 := ⟨R.val / 32, by have := R.isLt; omega⟩
def laneOf (R : Fin 8192) : Fin 32 := ⟨R.val % 32, Nat.mod_lt _ (by decide)⟩
/-- Row `32 * c + i` of `x`. -/
def rowOf (c : Fin 256) (i : Fin 32) : Fin 8192 := ⟨c.val * 32 + i.val, by have := c.isLt; have := i.isLt; omega⟩

/-- THE EDGE-WISE FORM at row `R` and batch column `b`: the edges into `R`'s node, each its block row `laneOf R`
    against its input node's 32 rows of `x`, plus the row's bias. -/
def edgeAt (x : SX.Idx → EReal) (rg cg : Fin 4096 → Fin 256) (wm wlv ew : SW.Idx → EReal) (bm blv eb : SB.Idx → EReal)
    (R : Fin 8192) (b : Fin 1024) : EReal :=
  (∑ e ∈ Finset.univ.filter (fun e : Fin 4096 => rg e = nodeOf R),
      ∑ i : Fin 32, edgeW wm wlv ew e i (laneOf R) * x (ix2 (rowOf (cg e) i) b))
    + biasAt bm blv eb R

/-- The same as an array over `[8192, 1024]`. -/
def edgeForm (x : SX.Idx → EReal) (rg cg : Fin 4096 → Fin 256) (wm wlv ew : SW.Idx → EReal) (bm blv eb : SB.Idx → EReal) :
    SX.Idx → EReal :=
  fun y => edgeAt x rg cg wm wlv ew bm blv eb (y 0) (y 1)

/-- Entry `[R, K]` of the dense block-sparse matrix: the weights, at lanes `(laneOf K, laneOf R)`, of the edges from
    `K`'s node to `R`'s node, added up. -/
def denseW (rg cg : Fin 4096 → Fin 256) (wm wlv ew : SW.Idx → EReal) (R K : Fin 8192) : EReal :=
  ∑ e ∈ Finset.univ.filter (fun e : Fin 4096 => rg e = nodeOf R ∧ cg e = nodeOf K), edgeW wm wlv ew e (laneOf K) (laneOf R)

/-- THE DENSE FORM at row `R` and batch column `b`: row `R` of the dense matrix against column `b` of `x`, plus
    the row's bias. -/
def denseAt (x : SX.Idx → EReal) (rg cg : Fin 4096 → Fin 256) (wm wlv ew : SW.Idx → EReal) (bm blv eb : SB.Idx → EReal)
    (R : Fin 8192) (b : Fin 1024) : EReal :=
  (∑ K : Fin 8192, denseW rg cg wm wlv ew R K * x (ix2 K b)) + biasAt bm blv eb R

/-- Every entry of an array is a real number. -/
def AllReal {s : Shape} (a : s.Idx → EReal) : Prop := ∀ i, ∃ r : ℝ, a i = (r : EReal)

/-- The coercion of the reals into the extended reals goes through a finite sum. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW OVER THE REALS, for any finite index types.  The columns `k` are the pairs (node `c`, lane `i`).
    Products distribute over the inner sum; the sums over `c`, `i` and the edges `e` are exchanged so that `e` is
    outermost; and for a fixed edge the sum over nodes `c` of "the edge's input node is `c`" keeps the single term
    `c = cg e`. -/
private theorem real_core {E C L K : Type*} [Fintype E] [Fintype C] [Fintype L] [Fintype K] [DecidableEq C]
    (σ : K ≃ C × L) (P : E → Prop) [DecidablePred P] (cg : E → C) (v : E → L → ℝ) (x : K → ℝ) :
    ∑ k : K, (∑ e ∈ Finset.univ.filter (fun e => P e ∧ cg e = (σ k).1), v e (σ k).2) * x k
      = ∑ e ∈ Finset.univ.filter P, ∑ i : L, v e i * x (σ.symm (cg e, i)) := by
  rw [← Equiv.sum_comp σ.symm]
  simp only [Equiv.apply_symm_apply]
  rw [Fintype.sum_prod_type]
  simp only [Finset.sum_mul, Finset.sum_filter]
  rw [Finset.sum_congr rfl (fun c _ => Finset.sum_comm), Finset.sum_comm]
  refine Finset.sum_congr rfl (fun e _ => ?_)
  by_cases h : P e
  · simp only [h, true_and, if_true]
    rw [Finset.sum_eq_single (cg e)]
    · simp
    · intro c _ hc
      simp [Ne.symm hc]
    · intro hc
      exact absurd (Finset.mem_univ _) hc
  · simp [h]

/-- A row `R = 32 * node + lane` is its pair (node, lane): division with remainder by 32. -/
private def splitRow : Fin 8192 ≃ Fin 256 × Fin 32 where
  toFun K := (nodeOf K, laneOf K)
  invFun p := rowOf p.1 p.2
  left_inv K := by
    apply Fin.ext
    simp only [nodeOf, laneOf, rowOf]
    omega
  right_inv p := by
    obtain ⟨c, i⟩ := p
    have hc := c.isLt
    have hi := i.isLt
    apply Prod.ext
    · apply Fin.ext
      simp only [nodeOf, rowOf]
      omega
    · apply Fin.ext
      simp only [laneOf, rowOf]
      omega

private theorem splitRow_apply (K : Fin 8192) : splitRow K = (nodeOf K, laneOf K) := rfl
private theorem splitRow_symm_apply (c : Fin 256) (i : Fin 32) : splitRow.symm (c, i) = rowOf c i := rfl

/-- THE LAW: for real weights and a real `x` the dense form is the edge-wise form. -/
theorem denseAt_eq_edgeAt (x : SX.Idx → EReal) (rg cg : Fin 4096 → Fin 256) (wm wlv ew : SW.Idx → EReal) (bm blv eb : SB.Idx → EReal)
    (hx : AllReal x) (hwm : AllReal wm) (hwlv : AllReal wlv) (hew : AllReal ew) (R : Fin 8192) (b : Fin 1024) :
    denseAt x rg cg wm wlv ew bm blv eb R b = edgeAt x rg cg wm wlv ew bm blv eb R b := by
  -- real witnesses of every input
  simp only [AllReal] at hx hwm hwlv hew
  choose xr hxr using hx
  choose wmr hwmr using hwm
  choose wlvr hwlvr using hwlv
  choose ewr hewr using hew
  -- every sampled weight is a real number: eps * exp(log_var) + mean of reals
  obtain ⟨v, hv⟩ : ∃ v : Fin 4096 → Fin 32 → Fin 32 → ℝ,
      ∀ e i j, edgeW wm wlv ew e i j = (v e i j : EReal) :=
    ⟨fun e i j => ewr (ix3 e i j) * Real.exp (wlvr (ix3 e i j)) + wmr (ix3 e i j), fun e i j => by
      simp only [edgeW, hewr, hwlvr, hwmr, Ideal.exp_coe, EReal.coe_mul, EReal.coe_add]⟩
  -- the identity over the reals, at the edges into `R`'s node, block row `laneOf R`, column `b` of `x`
  have key := real_core splitRow (fun e : Fin 4096 => rg e = nodeOf R) cg
    (fun e i => v e i (laneOf R)) (fun K => xr (ix2 K b))
  simp only [splitRow_apply, splitRow_symm_apply] at key
  -- carried into the extended reals term by term
  have key' := congrArg (fun r : ℝ => (r : EReal)) key
  simp only [coe_sum, EReal.coe_mul] at key'
  -- the bias is the same summand on both sides
  unfold denseAt edgeAt
  refine congrArg (· + biasAt bm blv eb R) ?_
  simp only [denseW, hv, hxr]
  exact key'

end Cert.Spec

end
-- ==== Proof.Pre.lean ====
import proofs.«407546_j41197326303442_3_alg».proof.Pre_finite_inputs
import proofs.«407546_j41197326303442_3_alg».proof.Proof.Spec
import Idealize.ShloMosaic.Lib.ReduceAll
import Idealize.ShloMosaic.Lib.StableHlo.Predicate

noncomputable section

namespace Cert.Proof.Pre

open Idealize.ShloMosaic Idealize.ShloMosaic.ValueIdx Cert.Spec

/-- The scalar shape has exactly one index. -/
local instance subsingletonScalarIdx : Subsingleton (Cert.Pre_finite_inputs.S_).Idx := ⟨fun a b => funext fun d => d.elim0⟩

/-- A conjunction of two truth bits is set exactly when both are. -/
theorem and1 : ∀ a b : BitVec 1, IntOp.andi a b = 1#1 ↔ a = 1#1 ∧ b = 1#1 := by decide

/-- An extended real whose absolute value `max v (-v)` lies strictly below `+∞` is a real number:
    `⊥` and `⊤` both have absolute value `⊤`, which is not below itself. -/
theorem real_of_abs_lt_top (v : EReal)
    (h : Ideal.cmp .olt (max v (-v)) (Ideal.ofBits .f32 0x7F800000#32) = 1#1) : ∃ r : ℝ, v = (r : EReal) := by
  have htop : Ideal.ofBits .f32 0x7F800000#32 = (⊤ : EReal) := by simp [Ideal.ofBits, Ideal.ieee]
  rw [htop] at h
  induction v using EReal.rec with
  | bot => simp [Ideal.cmp] at h
  | coe r => exact ⟨r, rfl⟩
  | top => simp [Ideal.cmp] at h

/-- "Every |entry| < +∞" over a whole array, read back: every entry is a real number. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr h0 ix0 = 1#1) : AllReal (s := s) x := by
  intro i
  have hi := Host.reduce_andi_all _ _ hr h0 ix0 e i
  exact real_of_abs_lt_top (x i) hi

/-- A 32-bit word that is, read signed, at least 0 and below 256 has a value below 256. -/
theorem word_lt (w : BitVec 32) (h1 : IntOp.cmpi .sge w 0#32 = 1#1) (h2 : IntOp.cmpi .slt w 256#32 = 1#1) :
    w.toNat < 256 := by
  rw [IntOp.cmpi_sge] at h1
  rw [IntOp.cmpi_slt] at h2
  have z : (0#32 : BitVec 32).toInt = 0 := by decide
  have c : (256#32 : BitVec 32).toInt = 256 := by decide
  rw [z] at h1; rw [c] at h2
  have hw := w.isLt
  rw [BitVec.toInt_eq_toNat_cond] at h1 h2
  split at h1 <;> omega

/-- "Every entry ≥ 0" and "every entry < 256" over an index vector, read back at one edge. -/
theorem range_of_all (w : IVec SE 32)
    (hb : Cert.Pre_finite_inputs.S_.BroadcastsInDim SE (![] : Fin 0 → Fin SE.rank))
    (hr : SE.ReducesTo [0] Cert.Pre_finite_inputs.S_) (h0 : 0 < Cert.Pre_finite_inputs.S_.numel)
    (e1 : Host.reduce IntOp.andi (cmpi .sge w (broadcastInDim SE ![] hb (constantI Cert.Pre_finite_inputs.S_ 32 0#32)))
          (constantI Cert.Pre_finite_inputs.S_ 1 1#1) hr h0 ix0 = 1#1)
    (e2 : Host.reduce IntOp.andi (cmpi .slt w (broadcastInDim SE ![] hb (constantI Cert.Pre_finite_inputs.S_ 32 256#32)))
          (constantI Cert.Pre_finite_inputs.S_ 1 1#1) hr h0 ix0 = 1#1) (e : Fin 4096) : (w (ix1 e)).toNat < 256 :=
  word_lt _ (Host.reduce_andi_all _ _ hr h0 ix0 e1 (ix1 e)) (Host.reduce_andi_all _ _ hr h0 ix0 e2 (ix1 e))

/-- THE PRECONDITION DECODED: every entry of `x` and of the three weight tensors is a real number, and every entry
    of the two index vectors is a node number in `[0, 256)`. -/
theorem decode [Cert.Pre_finite_inputs.Facts] (x : FVec Ideal SX .f32) (rg cg : IVec SE 32) (wm wlv ew : FVec Ideal SW .f32) (bm blv eb : FVec Ideal SB .f32)
    (h : Cert.Pre_finite_inputs.fn (F := Ideal) x rg cg wm wlv ew bm blv eb = fun _ => 1#1) :
    AllReal (s := SX) x ∧ AllReal (s := SW) wm ∧ AllReal (s := SW) wlv ∧ AllReal (s := SW) ew
      ∧ ∃ rgN cgN : Fin 4096 → Fin 256,
          (∀ e : Fin 4096, rg (ix1 e) = BitVec.ofNat 32 (rgN e).val) ∧ (∀ e : Fin 4096, cg (ix1 e) = BitVec.ofNat 32 (cgN e).val) := by
  have h0 := congrFun h ix0
  unfold Cert.Pre_finite_inputs.fn Cert.Pre_finite_inputs.fn_part1 Cert.Pre_finite_inputs.fn_part2 at h0
  dsimp only at h0
  obtain ⟨h10, hc1⟩ := (and1 _ _).1 h0
  obtain ⟨h9, hc0⟩ := (and1 _ _).1 h10
  obtain ⟨h8, hr1⟩ := (and1 _ _).1 h9
  obtain ⟨h7, hr0⟩ := (and1 _ _).1 h8
  obtain ⟨h6, heb⟩ := (and1 _ _).1 h7
  obtain ⟨h5, hblv⟩ := (and1 _ _).1 h6
  obtain ⟨h4, hbm⟩ := (and1 _ _).1 h5
  obtain ⟨h3, hew⟩ := (and1 _ _).1 h4
  obtain ⟨h2, hwlv⟩ := (and1 _ _).1 h3
  obtain ⟨hx, hwm⟩ := (and1 _ _).1 h2
  refine ⟨allReal_of_all x _ _ _ hx, allReal_of_all wm _ _ _ hwm, allReal_of_all wlv _ _ _ hwlv, allReal_of_all ew _ _ _ hew,
    fun e => ⟨(rg (ix1 e)).toNat, range_of_all rg _ _ _ hr0 hr1 e⟩,
    fun e => ⟨(cg (ix1 e)).toNat, range_of_all cg _ _ _ hc0 hc1 e⟩, fun e => ?_, fun e => ?_⟩
  · show rg (ix1 e) = BitVec.ofNat 32 (rg (ix1 e)).toNat
    rw [BitVec.ofNat_toNat, BitVec.setWidth_eq]
  · show cg (ix1 e) = BitVec.ofNat 32 (cg (ix1 e)).toNat
    rw [BitVec.ofNat_toNat, BitVec.setWidth_eq]

end Cert.Proof.Pre

end
-- ==== Proof.RefValue.lean ====
import proofs.«407546_j41197326303442_3_alg».proof.Proof.Gen.ReferenceIdeal.Read
import proofs.«407546_j41197326303442_3_alg».proof.Proof.Spec

noncomputable section

namespace Cert.Proof.Ref

open Idealize.ShloMosaic Idealize.ShloMosaic.ValueIdx Cert.ReferenceIdeal Cert.Spec

/-- A node number read as a signed 32-bit word is itself. -/
theorem toInt_ofNat_small (n : Nat) (hn : n < 256) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- Two rank-3 indices agree exactly when their coordinates do. -/
theorem ix3_inj {n0 n1 n2 : Nat} (a a' : Fin n0) (b b' : Fin n1) (c c' : Fin n2) :
    ix3 a b c = ix3 a' b' c' ↔ a = a' ∧ b = b' ∧ c = c' := by
  constructor
  · intro h
    refine ⟨?_, ?_, ?_⟩
    · exact congrFun h (0 : Fin 3)
    · exact congrFun h (1 : Fin 3)
    · exact congrFun h (2 : Fin 3)
  · rintro ⟨rfl, rfl, rfl⟩; rfl

/-! ## The gather read at an index -/

/-- The gather's dimension numbers, by a short name. -/
abbrev gatherDims := gather_S256x32x1024_S4096x1_S4096x32x1024_12_0_n_n_0_1_1321024

/-- The index word the gather reads for result index (e, i, b) sits at (e, 0) of the index column. -/
theorem gather_si (e : Fin 4096) (i : Fin 32) (b : Fin 1024) :
    gatherDims.siIdx (ix3 e i b) ⟨List.idxOf (0 : Fin 3) gatherDims.startIndexMap, List.idxOf_lt_length_iff.2 (List.mem_singleton.mpr rfl)⟩
      = ix2 e (0 : Fin 1) := by
  funext a; refine Fin.ext ?_
  match a with
  | ⟨0, _⟩ => rfl
  | ⟨1, _⟩ => rfl

/-- On the node axis the gather reads the node number the index word holds (below 256, so the clamp leaves it). -/
theorem gather_op0 (I : IVec S4096x1 32) (e : Fin 4096) (i : Fin 32) (b : Fin 1024) (c : Fin 256)
    (h : I (ix2 e (0 : Fin 1)) = BitVec.ofNat 32 c.val) :
    (gatherDims.operandIdx (ix3 e i b) I 0).val = c.val := by
  show gatherDims.start (ix3 e i b) I 0 + gatherDims.batchCoord (ix3 e i b) 0 + gatherDims.offCoord (ix3 e i b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ gatherDims.startIndexMap from List.mem_singleton.mpr rfl), gather_si, h,
    toInt_ofNat_small _ c.isLt]
  show min ((c.val : Int)).toNat (256 - 1) = c.val
  have := c.isLt
  rw [Int.toNat_natCast]; omega

/-- On the lane axis the gather reads the result's own lane coordinate. -/
theorem gather_op1 (I : IVec S4096x1 32) (e : Fin 4096) (i : Fin 32) (b : Fin 1024) :
    (gatherDims.operandIdx (ix3 e i b) I 1).val = i.val := by
  show gatherDims.start (ix3 e i b) I 1 + gatherDims.batchCoord (ix3 e i b) 1 + gatherDims.offCoord (ix3 e i b) 1 = _
  rw [GatherDims.batchCoord_eq_zero _ _ _ List.not_mem_nil]
  unfold GatherDims.start GatherDims.offCoord
  rw [dif_neg (show ¬ (1 : Fin 3) ∈ gatherDims.startIndexMap by decide), dif_pos (show (1 : Fin 3) ∈ gatherDims.sKept by decide)]
  simp only [Nat.add_zero, Nat.zero_add]
  rfl

/-- On the batch axis the gather reads the result's own batch coordinate. -/
theorem gather_op2 (I : IVec S4096x1 32) (e : Fin 4096) (i : Fin 32) (b : Fin 1024) :
    (gatherDims.operandIdx (ix3 e i b) I 2).val = b.val := by
  show gatherDims.start (ix3 e i b) I 2 + gatherDims.batchCoord (ix3 e i b) 2 + gatherDims.offCoord (ix3 e i b) 2 = _
  rw [GatherDims.batchCoord_eq_zero _ _ _ List.not_mem_nil]
  unfold GatherDims.start GatherDims.offCoord
  rw [dif_neg (show ¬ (2 : Fin 3) ∈ gatherDims.startIndexMap by decide), dif_pos (show (2 : Fin 3) ∈ gatherDims.sKept by decide)]
  simp only [Nat.add_zero, Nat.zero_add]
  rfl

/-- The gathered array at (e, i, b) is the table at (c, i, b), c the node number edge e's index word holds. -/
theorem gather_apply {α : Type} (T : S256x32x1024.Idx → α) (I : IVec S4096x1 32) (e : Fin 4096) (i : Fin 32) (b : Fin 1024)
    (c : Fin 256) (h : I (ix2 e (0 : Fin 1)) = BitVec.ofNat 32 c.val) :
    Host.gather gatherDims T I (ix3 e i b) = T (ix3 c i b) := by
  unfold Host.gather
  congr 1
  funext a; refine Fin.ext ?_
  match a with
  | ⟨0, _⟩ => exact gather_op0 I e i b c h
  | ⟨1, _⟩ => exact gather_op1 I e i b
  | ⟨2, _⟩ => exact gather_op2 I e i b

/-! ## The scatter-add read at an index -/

/-- The scatter's dimension numbers, by a short name. -/
abbrev scatterDims := scatter_S256x32x1024_S4096x1_S4096x32x1024_12_0_0_1

/-- The index word the scatter reads for update index (e, j, b) sits at (e, 0) of the index column. -/
theorem scatter_si (e : Fin 4096) (j : Fin 32) (b : Fin 1024) :
    scatterDims.siIdx (ix3 e j b) ⟨List.idxOf (0 : Fin 3) scatterDims.scatterDimsToOperandDims, List.idxOf_lt_length_iff.2 (List.mem_singleton.mpr rfl)⟩
      = ix2 e (0 : Fin 1) := by
  funext a; refine Fin.ext ?_
  match a with
  | ⟨0, _⟩ => rfl
  | ⟨1, _⟩ => rfl

/-- The window of update (e, j, b) starts, on the node axis, at the node number the index word holds; on the other two axes at 0. -/
theorem scatter_start0 (I : IVec S4096x1 32) (e : Fin 4096) (j : Fin 32) (b : Fin 1024) (r : Fin 256)
    (h : I (ix2 e (0 : Fin 1)) = BitVec.ofNat 32 r.val) : scatterDims.start (ix3 e j b) I 0 = (r.val : Int) := by
  unfold ScatterDims.start
  rw [dif_pos (show (0 : Fin 3) ∈ scatterDims.scatterDimsToOperandDims from List.mem_singleton.mpr rfl), scatter_si, h,
    toInt_ofNat_small _ r.isLt]

theorem scatter_start1 (I : IVec S4096x1 32) (e : Fin 4096) (j : Fin 32) (b : Fin 1024) : scatterDims.start (ix3 e j b) I 1 = 0 := by
  unfold ScatterDims.start
  rw [dif_neg (show ¬ (1 : Fin 3) ∈ scatterDims.scatterDimsToOperandDims by decide)]

theorem scatter_start2 (I : IVec S4096x1 32) (e : Fin 4096) (j : Fin 32) (b : Fin 1024) : scatterDims.start (ix3 e j b) I 2 = 0 := by
  unfold ScatterDims.start
  rw [dif_neg (show ¬ (2 : Fin 3) ∈ scatterDims.scatterDimsToOperandDims by decide)]

/-- The window coordinate of update (e, j, b): 0 on the node axis, j on the lane axis, b on the batch axis. -/
theorem scatter_win0 (e : Fin 4096) (j : Fin 32) (b : Fin 1024) : scatterDims.window (ix3 e j b) 0 = 0 := by
  unfold ScatterDims.window
  rw [dif_neg (show ¬ (0 : Fin 3) ∈ scatterDims.sKept by decide)]

theorem scatter_win1 (e : Fin 4096) (j : Fin 32) (b : Fin 1024) : scatterDims.window (ix3 e j b) 1 = j.val := by
  unfold ScatterDims.window
  rw [dif_pos (show (1 : Fin 3) ∈ scatterDims.sKept by decide)]
  rfl

theorem scatter_win2 (e : Fin 4096) (j : Fin 32) (b : Fin 1024) : scatterDims.window (ix3 e j b) 2 = b.val := by
  unfold ScatterDims.window
  rw [dif_pos (show (2 : Fin 3) ∈ scatterDims.sKept by decide)]
  rfl

/-- Update index (e, j, b) lands at (r, j, b), r the node number edge e's index word holds. -/
theorem scatter_result (I : IVec S4096x1 32) (e : Fin 4096) (j : Fin 32) (b : Fin 1024) (r : Fin 256)
    (h : I (ix2 e (0 : Fin 1)) = BitVec.ofNat 32 r.val) : scatterDims.resultIdx? (ix3 e j b) I = some (ix3 r j b) := by
  have hr := r.isLt; have hj := j.isLt; have hb := b.isLt
  have h0 : 0 ≤ scatterDims.start (ix3 e j b) I 0 + (scatterDims.window (ix3 e j b) 0 : Int) ∧ scatterDims.start (ix3 e j b) I 0 + (scatterDims.window (ix3 e j b) 0 : Int) < (256 : Nat) := by
    rw [scatter_start0 I e j b r h, scatter_win0]; omega
  have h1 : 0 ≤ scatterDims.start (ix3 e j b) I 1 + (scatterDims.window (ix3 e j b) 1 : Int) ∧ scatterDims.start (ix3 e j b) I 1 + (scatterDims.window (ix3 e j b) 1 : Int) < (32 : Nat) := by
    rw [scatter_start1, scatter_win1]; omega
  have h2 : 0 ≤ scatterDims.start (ix3 e j b) I 2 + (scatterDims.window (ix3 e j b) 2 : Int) ∧ scatterDims.start (ix3 e j b) I 2 + (scatterDims.window (ix3 e j b) 2 : Int) < (1024 : Nat) := by
    rw [scatter_start2, scatter_win2]; omega
  unfold ScatterDims.resultIdx?
  rw [dif_pos (fun a => match a with | ⟨0, _⟩ => h0 | ⟨1, _⟩ => h1 | ⟨2, _⟩ => h2)]
  congr 1
  funext a; refine Fin.ext ?_
  match a with
  | ⟨0, _⟩ =>
    show (scatterDims.start (ix3 e j b) I 0 + (scatterDims.window (ix3 e j b) 0 : Int)).toNat = r.val
    rw [scatter_start0 I e j b r h, scatter_win0]; omega
  | ⟨1, _⟩ =>
    show (scatterDims.start (ix3 e j b) I 1 + (scatterDims.window (ix3 e j b) 1 : Int)).toNat = j.val
    rw [scatter_start1, scatter_win1]; omega
  | ⟨2, _⟩ =>
    show (scatterDims.start (ix3 e j b) I 2 + (scatterDims.window (ix3 e j b) 2 : Int)).toNat = b.val
    rw [scatter_start2, scatter_win2]; omega

/-- THE SCATTER-ADD AT (r, j, b): the operand there plus the updates of the edges whose index word holds r, each at (e, j, b). -/
theorem scatter_apply (X : S256x32x1024.Idx → EReal) (I : IVec S4096x1 32) (Upd : S4096x32x1024.Idx → EReal) (rg : Fin 4096 → Fin 256)
    (h : ∀ e : Fin 4096, I (ix2 e (0 : Fin 1)) = BitVec.ofNat 32 (rg e).val) (r : Fin 256) (j : Fin 32) (b : Fin 1024) :
    Ideal.hostScatterAdd scatterDims X I Upd (ix3 r j b) = X (ix3 r j b) + ∑ e ∈ Finset.univ.filter (fun e : Fin 4096 => rg e = r), Upd (ix3 e j b) := by
  have hset : (Finset.univ.filter (fun u : S4096x32x1024.Idx => scatterDims.resultIdx? u I = some (ix3 r j b)))
      = (Finset.univ.filter (fun e : Fin 4096 => rg e = r)).image (fun e => (ix3 e j b : S4096x32x1024.Idx)) := by
    ext u
    obtain ⟨e', j', b', rfl⟩ : ∃ (e' : Fin 4096) (j' : Fin 32) (b' : Fin 1024), u = ix3 e' j' b' := ⟨u 0, u 1, u 2, eq_ix3 u⟩
    simp only [Finset.mem_filter, Finset.mem_univ, true_and, Finset.mem_image, scatter_result I e' j' b' (rg e') (h e'),
      Option.some.injEq, ix3_inj]
    constructor
    · rintro ⟨h1, rfl, rfl⟩; exact ⟨e', h1, rfl, rfl, rfl⟩
    · rintro ⟨a, h1, rfl, rfl, rfl⟩; exact ⟨h1, rfl, rfl⟩
  show X (ix3 r j b) + _ = _
  rw [hset, Finset.sum_image]
  intro a _ a' _ haa
  exact ((ix3_inj _ _ _ _ _ _).mp haa).1

/-! ## The reference, stage by stage -/

/-- Edge e's normalised column word is the column word itself: a node number is not negative. -/
theorem col_apply (x2 : IVec S4096 32) (e : Fin 4096) (c : Fin 256) (h : x2 (ix1 e) = BitVec.ofNat 32 c.val) :
    Read.val_main_v9 (F := Ideal) x2 (ix2 e (0 : Fin 1)) = BitVec.ofNat 32 c.val := by
  have hi : Read.idx_main_v9 (ix2 e (0 : Fin 1)) = ix1 e := by
    funext a; match a with | ⟨0, _⟩ => rfl
  have hc : IntOp.cmpi .slt (BitVec.ofNat 32 c.val) 0#32 = 0#1 := by
    apply eq_zero_of_ne_one
    intro h1
    have h2 : (BitVec.ofNat 32 c.val).slt 0#32 = true := by
      have h1' : BitVec.ofBool ((BitVec.ofNat 32 c.val).slt 0#32) = 1#1 := h1
      cases hb : (BitVec.ofNat 32 c.val).slt 0#32
      · rw [hb] at h1'; exact absurd h1' (by decide)
      · rfl
    unfold BitVec.slt at h2
    rw [toInt_ofNat_small _ c.isLt] at h2
    have h3 : ((c.val : Int)) < (0#32 : BitVec 32).toInt := of_decide_eq_true h2
    have h4 : (0#32 : BitVec 32).toInt = 0 := by decide
    omega
  rw [Read.val_main_v9_apply, hi, Read.val_main_v8_apply, Read.val_main_v5_apply, Read.val_main_v4_apply,
    Read.val_main_c_apply, h, hc, select_zero]

/-- The gathered rows: at (e, i, b), row 32 * cg e + i of x at column b. -/
theorem v10_apply (x0 : FVec Ideal S8192x1024 .f32) (x2 : IVec S4096 32) (cg : Fin 4096 → Fin 256)
    (hc : ∀ e : Fin 4096, x2 (ix1 e) = BitVec.ofNat 32 (cg e).val) (e : Fin 4096) (i : Fin 32) (b : Fin 1024) :
    Read.val_main_v10 (F := Ideal) x0 x2 (ix3 e i b) = x0 (ix2 (rowOf (cg e) i) b) := by
  unfold Read.val_main_v10
  rw [gather_apply _ _ e i b (cg e) (col_apply x2 e (cg e) (hc e)), Read.val_main_v3_apply]
  congr 1
  funext a; refine Fin.ext ?_
  have h0 := (cg e).isLt; have h1 := i.isLt; have h2 := b.isLt
  match a with
  | ⟨0, _⟩ =>
    show (((cg e).val * 32 + i.val) * 1024 + b.val) / 1024 = (cg e).val * 32 + i.val
    omega
  | ⟨1, _⟩ =>
    show (((cg e).val * 32 + i.val) * 1024 + b.val) % 1024 = b.val
    omega

/-- Edge e's contribution at (e, j, b): its block row j against its input node's 32 rows of x. -/
theorem v11_apply (x0 : FVec Ideal S8192x1024 .f32) (x2 : IVec S4096 32) (x3 x4 x5 : FVec Ideal S4096x32x32 .f32)
    (cg : Fin 4096 → Fin 256) (hc : ∀ e : Fin 4096, x2 (ix1 e) = BitVec.ofNat 32 (cg e).val)
    (e : Fin 4096) (j : Fin 32) (b : Fin 1024) :
    Read.val_main_v11 (F := Ideal) x0 x2 x3 x4 x5 (ix3 e j b)
      = ∑ i : Fin 32, edgeW x3 x4 x5 e i j * x0 (ix2 (rowOf (cg e) i) b) := by
  rw [Read.val_main_v11_apply]
  refine Finset.sum_congr rfl fun k _ => ?_
  have hl : Read.lidx_main_v11 (ix3 e j b) k = ix3 e k j := by
    funext a; match a with | ⟨0, _⟩ => rfl | ⟨1, _⟩ => rfl | ⟨2, _⟩ => rfl
  have hr : Read.ridx_main_v11 (ix3 e j b) k = ix3 e k b := by
    funext a; match a with | ⟨0, _⟩ => rfl | ⟨1, _⟩ => rfl | ⟨2, _⟩ => rfl
  rw [hl, hr, v10_apply x0 x2 cg hc e k b]
  rfl

/-- The scattered sums at (r, j, b): the contributions at (e, j, b) of the edges that end in node r. -/
theorem v14_apply (x0 : FVec Ideal S8192x1024 .f32) (x1 x2 : IVec S4096 32) (x3 x4 x5 : FVec Ideal S4096x32x32 .f32)
    (rg cg : Fin 4096 → Fin 256) (hr : ∀ e : Fin 4096, x1 (ix1 e) = BitVec.ofNat 32 (rg e).val)
    (hc : ∀ e : Fin 4096, x2 (ix1 e) = BitVec.ofNat 32 (cg e).val) (r : Fin 256) (j : Fin 32) (b : Fin 1024) :
    Read.val_main_v14 (F := Ideal) x0 x1 x2 x3 x4 x5 (ix3 r j b)
      = ∑ e ∈ Finset.univ.filter (fun e : Fin 4096 => rg e = r),
          ∑ i : Fin 32, edgeW x3 x4 x5 e i j * x0 (ix2 (rowOf (cg e) i) b) := by
  have hI : ∀ e : Fin 4096, Read.val_main_v13 (F := Ideal) x1 (ix2 e (0 : Fin 1)) = BitVec.ofNat 32 (rg e).val := by
    intro e
    have hi : Read.idx_main_v13 (ix2 e (0 : Fin 1)) = ix1 e := by
      funext a; match a with | ⟨0, _⟩ => rfl
    rw [Read.val_main_v13_apply, hi, hr e]
  unfold Read.val_main_v14
  show Ideal.hostScatterAdd scatterDims (Read.val_main_v12 (F := Ideal)) (Read.val_main_v13 (F := Ideal) x1)
      (Read.val_main_v11 (F := Ideal) x0 x2 x3 x4 x5) (ix3 r j b) = _
  rw [scatter_apply _ _ _ rg hI r j b, Read.val_main_v12_apply, Read.val_main_cst_apply]
  have hz : (FloatOps.ofBits (F := Ideal) .f32 0x00000000#32 : EReal) = 0 := Ideal.ofBits_zero_f32
  rw [hz, zero_add]
  refine Finset.sum_congr rfl fun e _ => ?_
  exact v11_apply x0 x2 x3 x4 x5 cg hc e j b

/-- The bias broadcast along the batch axis reads the sampled bias of the row. -/
theorem v20_apply (x6 x7 x8 : FVec Ideal S8192 .f32) (R : Fin 8192) (b : Fin 1024) :
    Read.val_main_v20 (F := Ideal) x6 x7 x8 (ix2 R b) = biasAt x6 x7 x8 R := by
  have h20 : Read.idx_main_v20 (ix2 R b) = ix2 R (0 : Fin 1) := by
    funext a; match a with | ⟨0, _⟩ => rfl | ⟨1, _⟩ => rfl
  have h19 : Read.idx_main_v19 (ix2 R (0 : Fin 1)) = ix1 R := by
    funext a; match a with | ⟨0, _⟩ => rfl
  rw [Read.val_main_v20_apply, h20, Read.val_main_v19_apply, h19]
  rfl

/-- THE REFERENCE IS THE EDGE-WISE FORM: with both index vectors holding node numbers, the reference's result term is
    `edgeForm` of the arguments (weights: mean = argument 3, log-variance = argument 4, noise = argument 5; bias: mean =
    argument 6, log-variance = argument 7, noise = argument 8). -/
theorem result_eq (x0 : FVec Ideal S8192x1024 .f32) (x1 x2 : IVec S4096 32) (x3 x4 x5 : FVec Ideal S4096x32x32 .f32)
    (x6 x7 x8 : FVec Ideal S8192 .f32) (rgN cgN : Fin 4096 → Fin 256)
    (hr : ∀ e : Fin 4096, x1 (ix1 e) = BitVec.ofNat 32 (rgN e).val) (hc : ∀ e : Fin 4096, x2 (ix1 e) = BitVec.ofNat 32 (cgN e).val) :
    Cert.ReferenceIdeal.Read.val_main_v21 (F := Ideal) x0 x1 x2 x3 x4 x5 x6 x7 x8 = edgeForm x0 rgN cgN x3 x4 x5 x6 x7 x8 := by
  funext y
  obtain ⟨R, b, rfl⟩ : ∃ (R : Fin 8192) (b : Fin 1024), y = ix2 R b := ⟨y 0, y 1, eq_ix2 y⟩
  have h15 : Read.idx_main_v15 (ix2 R b) = ix3 (nodeOf R) (laneOf R) b := by
    have h0 := R.isLt; have h1 := b.isLt
    funext a; refine Fin.ext ?_
    match a with
    | ⟨0, _⟩ =>
      show (R.val * 1024 + b.val) / 32768 = R.val / 32
      omega
    | ⟨1, _⟩ =>
      show (R.val * 1024 + b.val) / 1024 % 32 = R.val % 32
      omega
    | ⟨2, _⟩ =>
      show (R.val * 1024 + b.val) % 1024 = b.val
      omega
  rw [Read.val_main_v21_apply, Read.val_main_v15_apply, h15, v14_apply x0 x1 x2 x3 x4 x5 rgN cgN hr hc, v20_apply]
  rfl

end Cert.Proof.Ref

end
-- ==== Proof.Kn.Runs.lean ====
/-
  The body of the dense matmul-with-bias kernel, run in each of its three control cases.

  At every grid point the body loads the [1024, 2048] block of the dense matrix and the 2048 rows of the resident `x`
  that the point's position `k` on the contracted axis selects, and multiplies them on the matrix unit into a zero
  accumulator: the point's PRODUCT.  At `k = 0` the product is stored over whatever the output block's buffer
  held (`run_first`); at `k = 1, 2` the buffer is read back and the product added (`run_middle`); at `k = 3` the same
  and then the bias column is broadcast along the rows and added (`run_last`).  Each triple is on whole staging
  memrefs, the output's buffer ending at the case's value as a term of what was read; for every float instance.
-/
import proofs.«407546_j41197326303442_3_alg».proof.Proof.Gen.Kernel.Frame
import proofs.«407546_j41197326303442_3_alg».proof.Proof.Gen.Kernel.Skeleton
import Idealize.ShloMosaic.Lib.Pipeline.Value

set_option maxRecDepth 16384

noncomputable section

namespace Cert.Proof.Kn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The whole-buffer rectangle of the accumulator block, and its zero offsets. -/
abbrev rO : Rect S1024x1024 := Rect.unit (s := S1024x1024) ![0, 0] S1024x1024.size inb_S1024x1024_S1024x1024_0_0
theorem off0 : (![0, 0] : Fin 2 → ℕ) = fun _ => 0 := funext fun a => by fin_cases a <;> rfl
/-- The 2048 rows of the resident `x` that the point with coordinates `i` multiplies: rows `2048 * i 1 ...`. -/
abbrev slab (i : grid0.Coords) : Rect S8192x1024 := Rect.unit (s := S8192x1024) (k0_off1 i) S2048x1024.size (k0_off1_inb i)

theorem cover_rO (w : Vec F S1024x1024 .f32) (L : List (View.Piece (Elt F) S1024x1024 .f32)) (y : S1024x1024.Idx) :
    ∃ pc ∈ ((⟨rO, w⟩ : View.Piece (Elt F) S1024x1024 .f32) :: L), y ∈ pc.1.set :=
  ⟨_, List.mem_cons_self, View.mem_set_unit_zero off0 inb_S1024x1024_S1024x1024_0_0 y⟩

/-- The whole-buffer rectangle of the bias block. -/
abbrev rB : Rect S1024x1 := Rect.unit (s := S1024x1) ![0, 0] S1024x1.size inb_S1024x1_S1024x1_0_0
abbrev rA : Rect S1024x2048 := Rect.unit (s := S1024x2048) ![0, 0] S1024x2048.size inb_S1024x2048_S1024x2048_0_0

/-! ## The body's triple, case by case -/

theorem run_first (c : Dev nD) (i : grid0.Coords)
    (arg2 : Memref sig .tc .vmem S1024x2048 .bf16) (harg2 : arg2.IsWhole) (arg3 : Memref sig .tc .vmem S8192x1024 .bf16) (harg3 : arg3.IsWhole)
    (arg4 : Memref sig .tc .vmem S1024x1 .f32) (harg4 : arg4.IsWhole) (arg5 : Memref sig .tc .vmem S1024x1024 .f32) (harg5 : arg5.IsWhole)
    (h1 : k0_cond1 i = 1#1) (h2 : ¬ k0_cond2 i = 1#1) (h3 : ¬ k0_cond3 i = 1#1)
    (x0 : Vec F S1024x2048 .bf16) (x1 : Vec F S8192x1024 .bf16) (x2 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (View.ld x1 (slab i)) x0)) -∗ K ⟨⟩))
      ⊢ wp frame (wpE (defs₀ (F := F)) Variants.none c none) Set.univ (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_rO _ _), View.canon_unit_zero off0, View.readAt_eq_ld, View.readAt_eq_ld, View.ld_unit_zero off0]

theorem run_middle (c : Dev nD) (i : grid0.Coords)
    (arg2 : Memref sig .tc .vmem S1024x2048 .bf16) (harg2 : arg2.IsWhole) (arg3 : Memref sig .tc .vmem S8192x1024 .bf16) (harg3 : arg3.IsWhole)
    (arg4 : Memref sig .tc .vmem S1024x1 .f32) (harg4 : arg4.IsWhole) (arg5 : Memref sig .tc .vmem S1024x1024 .f32) (harg5 : arg5.IsWhole)
    (h1 : ¬ k0_cond1 i = 1#1) (h2 : k0_cond2 i = 1#1) (h3 : ¬ k0_cond3 i = 1#1)
    (x0 : Vec F S1024x2048 .bf16) (x1 : Vec F S8192x1024 .bf16) (x2 : Vec F S1024x1 .f32) (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (View.ld x1 (slab i)) x0 a)) -∗ K ⟨⟩))
      ⊢ wp frame (wpE (defs₀ (F := F)) Variants.none c none) Set.univ (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_rO _ _), View.canon_unit_zero off0, View.readAt_eq_ld, View.readAt_eq_ld, View.readAt_eq_ld, View.ld_unit_zero off0, View.ld_unit_zero off0]

theorem run_last (c : Dev nD) (i : grid0.Coords)
    (arg2 : Memref sig .tc .vmem S1024x2048 .bf16) (harg2 : arg2.IsWhole) (arg3 : Memref sig .tc .vmem S8192x1024 .bf16) (harg3 : arg3.IsWhole)
    (arg4 : Memref sig .tc .vmem S1024x1 .f32) (harg4 : arg4.IsWhole) (arg5 : Memref sig .tc .vmem S1024x1024 .f32) (harg5 : arg5.IsWhole)
    (h1 : ¬ k0_cond1 i = 1#1) (h2 : k0_cond2 i = 1#1) (h3 : k0_cond3 i = 1#1)
    (x0 : Vec F S1024x2048 .bf16) (x1 : Vec F S8192x1024 .bf16) (x2 : Vec F S1024x1 .f32) (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 (View.ld x1 (slab i)) x0 a) x2)) -∗ K ⟨⟩))
      ⊢ wp frame (wpE (defs₀ (F := F)) Variants.none c none) Set.univ (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover_rO _ _), View.canon_cons_unit_zero off0]
  simp only [View.readCov_unit_zero (S := S1024x1024) _ off0, View.readAt_eq_ld, View.ld_unit_zero (S := S1024x1024) off0,
    View.ld_unit_zero (S := S1024x2048) off0, View.ld_unit_zero (S := S1024x1) off0]
  rfl

end Cert.Proof.Kn

end
-- ==== Proof.Kn.Body.lean ====
/-
  The pipeline's proof data and the frame run of the dense matmul-with-bias kernel.

  The pallas_call walks a grid of 8 row blocks by 4 blocks of the contracted axis (innermost).  The output block is
  the accumulator: its index does not move along the contracted axis, so its staging buffer is carried from point to
  point and written back after `k = 3`.

  * `accAt`: the accumulator's value after each point, by recursion on the point;
  * `dats`, `sound_body`, `body_obligation`, `run_main`, `frame`: the proof data, the obligation and the launch.
  Everything is stated for every float instance.
-/
import proofs.«407546_j41197326303442_3_alg».proof.Proof.Kn.Runs

set_option maxRecDepth 16384

noncomputable section

namespace Cert.Proof.Kn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The three control cases over the grid

The grid is 8 row blocks by 4 blocks of the contracted axis, the contracted axis innermost: point `t` has
`k = t % 4`.  The body resets the accumulator at `k = 0`, adds the point's product at `k ≠ 0`, and adds the bias at
`k = 3`. -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)
/-- Every point stores into the accumulator block (either the reset or the update runs): it is idle nowhere. -/
theorem live3 : ∀ i : grid0.Coords, cfg0.idle 3 i = false := by decide +kernel

/-! ## The accumulator's value, point by point -/

variable (m : (ℓ : Loc nD τ sig) → Buf (Elt F) ℓ) (ρ : Dev nD → PrngReg)

/-- The blocks the body reads at point `t`, at their literal types: the [1024, 2048] block of the dense matrix, the
    whole resident `x`, the [1024, 1] block of the bias column. -/
abbrev wBlk (c : Dev nD) (t : Fin cfg0.N) : Vec F S1024x2048 .bf16 := iblk m c 0 t
abbrev xAll (c : Dev nD) (t : Fin cfg0.N) : Vec F S8192x1024 .bf16 := iblk m c 1 t
abbrev bBlk (c : Dev nD) (t : Fin cfg0.N) : Vec F S1024x1 .f32 := iblk m c 2 t

/-- What the accumulator block holds after the body at position `n`: the point's product alone at `k = 0`; what the
    point before left plus the point's product at `k = 1, 2`; at `k = 3` that, plus the bias column broadcast. -/
def accAt (c : Dev nD) : (n : ℕ) → n < cfg0.N → Vec F S1024x1024 .f32
  | 0, hn => k0_pay1 (View.ld (xAll m c ⟨0, hn⟩) (slab (grid0.coords ⟨0, hn⟩))) (wBlk m c ⟨0, hn⟩)
  | n + 1, hn =>
    if (n + 1) % 4 = 0 then
      k0_pay1 (View.ld (xAll m c ⟨n + 1, hn⟩) (slab (grid0.coords ⟨n + 1, hn⟩))) (wBlk m c ⟨n + 1, hn⟩)
    else if (n + 1) % 4 = 3 then
      k0_pay3 (k0_pay2 (View.ld (xAll m c ⟨n + 1, hn⟩) (slab (grid0.coords ⟨n + 1, hn⟩))) (wBlk m c ⟨n + 1, hn⟩)
        (accAt c n (Nat.lt_of_succ_lt hn))) (bBlk m c ⟨n + 1, hn⟩)
    else
      k0_pay2 (View.ld (xAll m c ⟨n + 1, hn⟩) (slab (grid0.coords ⟨n + 1, hn⟩))) (wBlk m c ⟨n + 1, hn⟩)
        (accAt c n (Nat.lt_of_succ_lt hn))

/-- At a point with `k = 0`: the point's product. -/
theorem accAt_first (c : Dev nD) (t : Fin cfg0.N) (h : t.val % 4 = 0) :
    accAt m c t.val t.isLt = k0_pay1 (View.ld (xAll m c t) (slab (grid0.coords t))) (wBlk m c t) := by
  obtain ⟨n, hn⟩ := t
  cases n with
  | zero => rfl
  | succ n => exact (if_pos h).trans rfl

/-- At a point with `k = 1` or `2`: what the point before left, plus the point's product. -/
theorem accAt_middle (c : Dev nD) (t : Fin cfg0.N) (h0 : ¬t.val % 4 = 0) (h3 : ¬t.val % 4 = 3) :
    accAt m c t.val t.isLt = k0_pay2 (View.ld (xAll m c t) (slab (grid0.coords t))) (wBlk m c t)
      (accAt m c (t.val - 1) (Nat.lt_of_le_of_lt (Nat.sub_le _ _) t.isLt)) := by
  obtain ⟨n, hn⟩ := t
  cases n with
  | zero => exact absurd (Nat.zero_mod _) h0
  | succ n => exact ((if_neg h0).trans (if_neg h3)).trans rfl

/-- At a point with `k = 3`: that, plus the bias column. -/
theorem accAt_last (c : Dev nD) (t : Fin cfg0.N) (h3 : t.val % 4 = 3) :
    accAt m c t.val t.isLt = k0_pay3 (k0_pay2 (View.ld (xAll m c t) (slab (grid0.coords t))) (wBlk m c t)
      (accAt m c (t.val - 1) (Nat.lt_of_le_of_lt (Nat.sub_le _ _) t.isLt))) (bBlk m c t) := by
  obtain ⟨n, hn⟩ := t
  cases n with
  | zero => exfalso; dsimp only at h3; omega
  | succ n => exact ((if_neg (by dsimp only at h3; omega)).trans (if_pos h3)).trans rfl

/-! ## The pipeline's proof data -/

/-- The arrays as the region finds them; after the body each input's buffer still at its block and the output's at
    the accumulator's value; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a point with `k ≠ 0` the accumulator block's buffer holds what the body left at the point before: the point is
    not the first, the block was not written back in between (that happens after `k = 3` only), and the window is
    live and uncut. -/
theorem before0_3 (c : Dev nD) (t : Fin cfg0.N) (h0 : ¬t.val % 4 = 0) (d) :
    (dats m 0 c).before 3 t d = accAt m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks; `k = t % 4` says which control case the point is
    in; where the case reads the accumulator it finds what the point before left; the invariant and the core's
    debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [accAt_first m c t h0]
    iintro ⟨HΦ, Ho, ⟨%d0, H0⟩, ⟨%d1, H1⟩, ⟨%d2, H2⟩, ⟨%d3, H3⟩⟩
    iapply (run_first c (grid0.coords t) _ _ _ _ _ _ _ _ ((hcond1 t).mpr h0) (fun h => (hcond2 t).mp h h0)
      (fun h => by have := (hcond3 t).mp h; omega) (wBlk m c t) (xAll m c t) (bBlk m c t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3 m c t h0]
    by_cases h3 : t.val % 4 = 3
    · rw [accAt_last m c t h3]
      iintro ⟨HΦ, Ho, ⟨%d0, H0⟩, ⟨%d1, H1⟩, ⟨%d2, H2⟩, ⟨%d3, H3⟩⟩
      iapply (run_last c (grid0.coords t) _ _ _ _ _ _ _ _ (fun h => h0 ((hcond1 t).mp h)) ((hcond2 t).mpr h0)
        ((hcond3 t).mpr h3) (wBlk m c t) (xAll m c t) (bBlk m c t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [accAt_middle m c t h0 h3]
      iintro ⟨HΦ, Ho, ⟨%d0, H0⟩, ⟨%d1, H1⟩, ⟨%d2, H2⟩, ⟨%d3, H3⟩⟩
      iapply (run_middle c (grid0.coords t) _ _ _ _ _ _ _ _ (fun h => h0 ((hcond1 t).mp h)) ((hcond2 t).mpr h0)
        (fun h => h3 ((hcond3 t).mp h)) (wBlk m c t) (xAll m c t) (bBlk m c t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  have hl : idle0 3 (grid0.coords t) = false := live3 _
  simp only [hl]
  exact sound_body m c t

/-! ## The run and the frame -/

set_option backward.isDefEq.respectTransparency.types false in
/-- Every weakly fair execution of the program terminates; in every final state each array of the pipeline is what the
    proof data say and every other unscoped buffer is as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-! ## Rows and points, for reading the output array

Row block `I` of the output (rows `1024 * I ...`) is written back once, after its last point `4 * I + 3`. -/

/-- Row `p` of row block `I`. -/
def rowIx (I : Fin 8) (p : Fin 1024) : Fin 8192 := ⟨1024 * I.val + p.val, by have := I.isLt; have := p.isLt; omega⟩
/-- The last point of row block `I`. -/
def lastPt (I : Fin 8) : Fin cfg0.N := ⟨4 * I.val + 3, by have := I.isLt; have : cfg0.N = 32 := N_0; omega⟩

end Cert.Proof.Kn

end
-- ==== Proof.KI.Runs.lean ====
/-
  The body of the dense matmul-with-bias kernel, run in each of its three control cases.

  At every grid point the body loads the [1024, 2048] block of the dense matrix and the 2048 rows of the resident `x`
  that the point's position `k` on the contracted axis selects, and multiplies them on the matrix unit into a zero
  accumulator: the point's PRODUCT.  At `k = 0` the product is stored over whatever the output block's buffer
  held (`run_first`); at `k = 1, 2` the buffer is read back and the product added (`run_middle`); at `k = 3` the same
  and then the bias column is broadcast along the rows and added (`run_last`).  Each triple is on whole staging
  memrefs, the output's buffer ending at the case's value as a term of what was read; for every float instance.
-/
import proofs.«407546_j41197326303442_3_alg».proof.Proof.Gen.KernelIdeal.Frame
import proofs.«407546_j41197326303442_3_alg».proof.Proof.Gen.KernelIdeal.Skeleton
import Idealize.ShloMosaic.Lib.Pipeline.Value

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The whole-buffer rectangle of the accumulator block, and its zero offsets. -/
abbrev rO : Rect S1024x1024 := Rect.unit (s := S1024x1024) ![0, 0] S1024x1024.size inb_S1024x1024_S1024x1024_0_0
theorem off0 : (![0, 0] : Fin 2 → ℕ) = fun _ => 0 := funext fun a => by fin_cases a <;> rfl
/-- The 2048 rows of the resident `x` that the point with coordinates `i` multiplies: rows `2048 * i 1 ...`. -/
abbrev slab (i : grid0.Coords) : Rect S8192x1024 := Rect.unit (s := S8192x1024) (k0_off1 i) S2048x1024.size (k0_off1_inb i)

theorem cover_rO (w : Vec F S1024x1024 .f32) (L : List (View.Piece (Elt F) S1024x1024 .f32)) (y : S1024x1024.Idx) :
    ∃ pc ∈ ((⟨rO, w⟩ : View.Piece (Elt F) S1024x1024 .f32) :: L), y ∈ pc.1.set :=
  ⟨_, List.mem_cons_self, View.mem_set_unit_zero off0 inb_S1024x1024_S1024x1024_0_0 y⟩

/-- The whole-buffer rectangle of the bias block. -/
abbrev rB : Rect S1024x1 := Rect.unit (s := S1024x1) ![0, 0] S1024x1.size inb_S1024x1_S1024x1_0_0
abbrev rA : Rect S1024x2048 := Rect.unit (s := S1024x2048) ![0, 0] S1024x2048.size inb_S1024x2048_S1024x2048_0_0

/-! ## The body's triple, case by case -/

theorem run_first (c : Dev nD) (i : grid0.Coords)
    (arg2 : Memref sig .tc .vmem S1024x2048 .bf16) (harg2 : arg2.IsWhole) (arg3 : Memref sig .tc .vmem S8192x1024 .bf16) (harg3 : arg3.IsWhole)
    (arg4 : Memref sig .tc .vmem S1024x1 .f32) (harg4 : arg4.IsWhole) (arg5 : Memref sig .tc .vmem S1024x1024 .f32) (harg5 : arg5.IsWhole)
    (h1 : k0_cond1 i = 1#1) (h2 : ¬ k0_cond2 i = 1#1) (h3 : ¬ k0_cond3 i = 1#1)
    (x0 : Vec F S1024x2048 .bf16) (x1 : Vec F S8192x1024 .bf16) (x2 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (View.ld x1 (slab i)) x0)) -∗ K ⟨⟩))
      ⊢ wp frame (wpE (defs₀ (F := F)) Variants.none c none) Set.univ (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_rO _ _), View.canon_unit_zero off0, View.readAt_eq_ld, View.readAt_eq_ld, View.ld_unit_zero off0]

theorem run_middle (c : Dev nD) (i : grid0.Coords)
    (arg2 : Memref sig .tc .vmem S1024x2048 .bf16) (harg2 : arg2.IsWhole) (arg3 : Memref sig .tc .vmem S8192x1024 .bf16) (harg3 : arg3.IsWhole)
    (arg4 : Memref sig .tc .vmem S1024x1 .f32) (harg4 : arg4.IsWhole) (arg5 : Memref sig .tc .vmem S1024x1024 .f32) (harg5 : arg5.IsWhole)
    (h1 : ¬ k0_cond1 i = 1#1) (h2 : k0_cond2 i = 1#1) (h3 : ¬ k0_cond3 i = 1#1)
    (x0 : Vec F S1024x2048 .bf16) (x1 : Vec F S8192x1024 .bf16) (x2 : Vec F S1024x1 .f32) (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (View.ld x1 (slab i)) x0 a)) -∗ K ⟨⟩))
      ⊢ wp frame (wpE (defs₀ (F := F)) Variants.none c none) Set.univ (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_rO _ _), View.canon_unit_zero off0, View.readAt_eq_ld, View.readAt_eq_ld, View.readAt_eq_ld, View.ld_unit_zero off0, View.ld_unit_zero off0]

theorem run_last (c : Dev nD) (i : grid0.Coords)
    (arg2 : Memref sig .tc .vmem S1024x2048 .bf16) (harg2 : arg2.IsWhole) (arg3 : Memref sig .tc .vmem S8192x1024 .bf16) (harg3 : arg3.IsWhole)
    (arg4 : Memref sig .tc .vmem S1024x1 .f32) (harg4 : arg4.IsWhole) (arg5 : Memref sig .tc .vmem S1024x1024 .f32) (harg5 : arg5.IsWhole)
    (h1 : ¬ k0_cond1 i = 1#1) (h2 : k0_cond2 i = 1#1) (h3 : k0_cond3 i = 1#1)
    (x0 : Vec F S1024x2048 .bf16) (x1 : Vec F S8192x1024 .bf16) (x2 : Vec F S1024x1 .f32) (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 (View.ld x1 (slab i)) x0 a) x2)) -∗ K ⟨⟩))
      ⊢ wp frame (wpE (defs₀ (F := F)) Variants.none c none) Set.univ (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover_rO _ _), View.canon_cons_unit_zero off0]
  simp only [View.readCov_unit_zero (S := S1024x1024) _ off0, View.readAt_eq_ld, View.ld_unit_zero (S := S1024x1024) off0,
    View.ld_unit_zero (S := S1024x2048) off0, View.ld_unit_zero (S := S1024x1) off0]
  rfl

end Cert.Proof.KI

end
-- ==== Proof.KI.Body.lean ====
/-
  The pipeline's proof data and the frame run of the dense matmul-with-bias kernel.

  The pallas_call walks a grid of 8 row blocks by 4 blocks of the contracted axis (innermost).  The output block is
  the accumulator: its index does not move along the contracted axis, so its staging buffer is carried from point to
  point and written back after `k = 3`.

  * `accAt`: the accumulator's value after each point, by recursion on the point;
  * `dats`, `sound_body`, `body_obligation`, `run_main`, `frame`: the proof data, the obligation and the launch.
  Everything is stated for every float instance.
-/
import proofs.«407546_j41197326303442_3_alg».proof.Proof.KI.Runs

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The three control cases over the grid

The grid is 8 row blocks by 4 blocks of the contracted axis, the contracted axis innermost: point `t` has
`k = t % 4`.  The body resets the accumulator at `k = 0`, adds the point's product at `k ≠ 0`, and adds the bias at
`k = 3`. -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)
/-- Every point stores into the accumulator block (either the reset or the update runs): it is idle nowhere. -/
theorem live3 : ∀ i : grid0.Coords, cfg0.idle 3 i = false := by decide +kernel

/-! ## The accumulator's value, point by point -/

variable (m : (ℓ : Loc nD τ sig) → Buf (Elt F) ℓ) (ρ : Dev nD → PrngReg)

/-- The blocks the body reads at point `t`, at their literal types: the [1024, 2048] block of the dense matrix, the
    whole resident `x`, the [1024, 1] block of the bias column. -/
abbrev wBlk (c : Dev nD) (t : Fin cfg0.N) : Vec F S1024x2048 .bf16 := iblk m c 0 t
abbrev xAll (c : Dev nD) (t : Fin cfg0.N) : Vec F S8192x1024 .bf16 := iblk m c 1 t
abbrev bBlk (c : Dev nD) (t : Fin cfg0.N) : Vec F S1024x1 .f32 := iblk m c 2 t

/-- What the accumulator block holds after the body at position `n`: the point's product alone at `k = 0`; what the
    point before left plus the point's product at `k = 1, 2`; at `k = 3` that, plus the bias column broadcast. -/
def accAt (c : Dev nD) : (n : ℕ) → n < cfg0.N → Vec F S1024x1024 .f32
  | 0, hn => k0_pay1 (View.ld (xAll m c ⟨0, hn⟩) (slab (grid0.coords ⟨0, hn⟩))) (wBlk m c ⟨0, hn⟩)
  | n + 1, hn =>
    if (n + 1) % 4 = 0 then
      k0_pay1 (View.ld (xAll m c ⟨n + 1, hn⟩) (slab (grid0.coords ⟨n + 1, hn⟩))) (wBlk m c ⟨n + 1, hn⟩)
    else if (n + 1) % 4 = 3 then
      k0_pay3 (k0_pay2 (View.ld (xAll m c ⟨n + 1, hn⟩) (slab (grid0.coords ⟨n + 1, hn⟩))) (wBlk m c ⟨n + 1, hn⟩)
        (accAt c n (Nat.lt_of_succ_lt hn))) (bBlk m c ⟨n + 1, hn⟩)
    else
      k0_pay2 (View.ld (xAll m c ⟨n + 1, hn⟩) (slab (grid0.coords ⟨n + 1, hn⟩))) (wBlk m c ⟨n + 1, hn⟩)
        (accAt c n (Nat.lt_of_succ_lt hn))

/-- At a point with `k = 0`: the point's product. -/
theorem accAt_first (c : Dev nD) (t : Fin cfg0.N) (h : t.val % 4 = 0) :
    accAt m c t.val t.isLt = k0_pay1 (View.ld (xAll m c t) (slab (grid0.coords t))) (wBlk m c t) := by
  obtain ⟨n, hn⟩ := t
  cases n with
  | zero => rfl
  | succ n => exact (if_pos h).trans rfl

/-- At a point with `k = 1` or `2`: what the point before left, plus the point's product. -/
theorem accAt_middle (c : Dev nD) (t : Fin cfg0.N) (h0 : ¬t.val % 4 = 0) (h3 : ¬t.val % 4 = 3) :
    accAt m c t.val t.isLt = k0_pay2 (View.ld (xAll m c t) (slab (grid0.coords t))) (wBlk m c t)
      (accAt m c (t.val - 1) (Nat.lt_of_le_of_lt (Nat.sub_le _ _) t.isLt)) := by
  obtain ⟨n, hn⟩ := t
  cases n with
  | zero => exact absurd (Nat.zero_mod _) h0
  | succ n => exact ((if_neg h0).trans (if_neg h3)).trans rfl

/-- At a point with `k = 3`: that, plus the bias column. -/
theorem accAt_last (c : Dev nD) (t : Fin cfg0.N) (h3 : t.val % 4 = 3) :
    accAt m c t.val t.isLt = k0_pay3 (k0_pay2 (View.ld (xAll m c t) (slab (grid0.coords t))) (wBlk m c t)
      (accAt m c (t.val - 1) (Nat.lt_of_le_of_lt (Nat.sub_le _ _) t.isLt))) (bBlk m c t) := by
  obtain ⟨n, hn⟩ := t
  cases n with
  | zero => exfalso; dsimp only at h3; omega
  | succ n => exact ((if_neg (by dsimp only at h3; omega)).trans (if_pos h3)).trans rfl

/-! ## The pipeline's proof data -/

/-- The arrays as the region finds them; after the body each input's buffer still at its block and the output's at
    the accumulator's value; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a point with `k ≠ 0` the accumulator block's buffer holds what the body left at the point before: the point is
    not the first, the block was not written back in between (that happens after `k = 3` only), and the window is
    live and uncut. -/
theorem before0_3 (c : Dev nD) (t : Fin cfg0.N) (h0 : ¬t.val % 4 = 0) (d) :
    (dats m 0 c).before 3 t d = accAt m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks; `k = t % 4` says which control case the point is
    in; where the case reads the accumulator it finds what the point before left; the invariant and the core's
    debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [accAt_first m c t h0]
    iintro ⟨HΦ, Ho, ⟨%d0, H0⟩, ⟨%d1, H1⟩, ⟨%d2, H2⟩, ⟨%d3, H3⟩⟩
    iapply (run_first c (grid0.coords t) _ _ _ _ _ _ _ _ ((hcond1 t).mpr h0) (fun h => (hcond2 t).mp h h0)
      (fun h => by have := (hcond3 t).mp h; omega) (wBlk m c t) (xAll m c t) (bBlk m c t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3 m c t h0]
    by_cases h3 : t.val % 4 = 3
    · rw [accAt_last m c t h3]
      iintro ⟨HΦ, Ho, ⟨%d0, H0⟩, ⟨%d1, H1⟩, ⟨%d2, H2⟩, ⟨%d3, H3⟩⟩
      iapply (run_last c (grid0.coords t) _ _ _ _ _ _ _ _ (fun h => h0 ((hcond1 t).mp h)) ((hcond2 t).mpr h0)
        ((hcond3 t).mpr h3) (wBlk m c t) (xAll m c t) (bBlk m c t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [accAt_middle m c t h0 h3]
      iintro ⟨HΦ, Ho, ⟨%d0, H0⟩, ⟨%d1, H1⟩, ⟨%d2, H2⟩, ⟨%d3, H3⟩⟩
      iapply (run_middle c (grid0.coords t) _ _ _ _ _ _ _ _ (fun h => h0 ((hcond1 t).mp h)) ((hcond2 t).mpr h0)
        (fun h => h3 ((hcond3 t).mp h)) (wBlk m c t) (xAll m c t) (bBlk m c t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  have hl : idle0 3 (grid0.coords t) = false := live3 _
  simp only [hl]
  exact sound_body m c t

/-! ## The run and the frame -/

set_option backward.isDefEq.respectTransparency.types false in
/-- Every weakly fair execution of the program terminates; in every final state each array of the pipeline is what the
    proof data say and every other unscoped buffer is as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-! ## Rows and points, for reading the output array

Row block `I` of the output (rows `1024 * I ...`) is written back once, after its last point `4 * I + 3`. -/

/-- Row `p` of row block `I`. -/
def rowIx (I : Fin 8) (p : Fin 1024) : Fin 8192 := ⟨1024 * I.val + p.val, by have := I.isLt; have := p.isLt; omega⟩
/-- The last point of row block `I`. -/
def lastPt (I : Fin 8) : Fin cfg0.N := ⟨4 * I.val + 3, by have := I.isLt; have : cfg0.N = 32 := N_0; omega⟩

end Cert.Proof.KI

end
-- ==== Proof.KI.Host.lean ====
import proofs.«407546_j41197326303442_3_alg».proof.Proof.Gen.KernelIdeal.Frame
import proofs.«407546_j41197326303442_3_alg».proof.Proof.Spec
import Idealize.ShloMosaic.Lib.Pipeline.Value
import Idealize.ShloMosaic.Lib.ValueIdx

noncomputable section

namespace Cert.Proof.KI.Host

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The three arrays the pallas_call's input windows stage, as the region finds them, at their literal types. -/
abbrev denseArr (c : Dev nD) : FVec Ideal S8192x8192 .bf16 := V m c main_v20
abbrev xArr (c : Dev nD) : FVec Ideal S8192x1024 .bf16 := V m c main_v21
abbrev biasArr (c : Dev nD) : FVec Ideal S8192x1 .f32 := V m c main_v25

/-- The scatter's dimension numbers. -/
abbrev dS : ScatterDims S256x32x256x32 S4096x2 S4096x32x32 := scatter_S256x32x256x32_S4096x2_S4096x32x32_12_02_02_1

/-- A word holding a node number reads, signed, as that number. -/
theorem toInt_node (n : Fin 256) : (BitVec.ofNat 32 n.val).toInt = (n.val : Int) := by
  rw [BitVec.toInt_ofNat']
  have := n.isLt
  exact Int.bmod_eq_of_le (by omega) (by omega)

/-- Update index `(e, j, i)` reads component `k` of its start index at row `e`, column `k` of the index array. -/
theorem siIdx_apply (e : Fin 4096) (j i : Fin 32) (k : Fin dS.scatterDimsToOperandDims.length) :
    dS.siIdx (ix3 e j i) k = ix2 e (⟨k.val, k.isLt⟩ : Fin 2) := by
  funext b
  match b with
  | ⟨0, _⟩ => rfl
  | ⟨1, _⟩ => rfl

theorem start_0 (idx : IVec S4096x2 32) (e : Fin 4096) (j i : Fin 32) :
    dS.start (ix3 e j i) idx 0 = (idx (ix2 e (0 : Fin 2))).toInt := by
  unfold ScatterDims.start
  rw [dif_pos (by decide), siIdx_apply]
  rfl

theorem start_2 (idx : IVec S4096x2 32) (e : Fin 4096) (j i : Fin 32) :
    dS.start (ix3 e j i) idx 2 = (idx (ix2 e (1 : Fin 2))).toInt := by
  unfold ScatterDims.start
  rw [dif_pos (by decide), siIdx_apply]
  rfl

theorem start_1 (idx : IVec S4096x2 32) (e : Fin 4096) (j i : Fin 32) : dS.start (ix3 e j i) idx 1 = 0 := rfl
theorem start_3 (idx : IVec S4096x2 32) (e : Fin 4096) (j i : Fin 32) : dS.start (ix3 e j i) idx 3 = 0 := rfl

theorem window_0 (e : Fin 4096) (j i : Fin 32) : dS.window (ix3 e j i) 0 = 0 := rfl
theorem window_1 (e : Fin 4096) (j i : Fin 32) : dS.window (ix3 e j i) 1 = j.val := rfl
theorem window_2 (e : Fin 4096) (j i : Fin 32) : dS.window (ix3 e j i) 2 = 0 := rfl
theorem window_3 (e : Fin 4096) (j i : Fin 32) : dS.window (ix3 e j i) 3 = i.val := rfl

/-- Where update index `(e, j, i)` lands when row `e` of the index array holds the node numbers `(r, c)`: at
    `(r, j, c, i)`, always inside the operand. -/
theorem resultIdx_eq (idx : IVec S4096x2 32) (e : Fin 4096) (j i : Fin 32) (r c : Fin 256)
    (hr : idx (ix2 e (0 : Fin 2)) = BitVec.ofNat 32 r.val) (hc : idx (ix2 e (1 : Fin 2)) = BitVec.ofNat 32 c.val) :
    dS.resultIdx? (ix3 e j i) idx = some (ix4 r j c i) := by
  have hsum : ∀ a : Fin S256x32x256x32.rank,
      dS.start (ix3 e j i) idx a + dS.window (ix3 e j i) a = ((ix4 r j c i a).val : Int) := by
    intro a
    match a with
    | ⟨0, _⟩ =>
      show dS.start (ix3 e j i) idx 0 + (dS.window (ix3 e j i) 0 : Int) = (r.val : Int)
      rw [start_0, window_0, hr, toInt_node]; simp
    | ⟨1, _⟩ =>
      show dS.start (ix3 e j i) idx 1 + (dS.window (ix3 e j i) 1 : Int) = (j.val : Int)
      rw [start_1, window_1]; simp
    | ⟨2, _⟩ =>
      show dS.start (ix3 e j i) idx 2 + (dS.window (ix3 e j i) 2 : Int) = (c.val : Int)
      rw [start_2, window_2, hc, toInt_node]; simp
    | ⟨3, _⟩ =>
      show dS.start (ix3 e j i) idx 3 + (dS.window (ix3 e j i) 3 : Int) = (i.val : Int)
      rw [start_3, window_3]; simp
  have hb : ∀ a : Fin S256x32x256x32.rank, 0 ≤ dS.start (ix3 e j i) idx a + dS.window (ix3 e j i) a ∧
      dS.start (ix3 e j i) idx a + dS.window (ix3 e j i) a < S256x32x256x32.size a := by
    intro a
    rw [hsum a]
    exact ⟨Int.natCast_nonneg _, Int.ofNat_lt.mpr (ix4 r j c i a).isLt⟩
  unfold ScatterDims.resultIdx?
  rw [dif_pos hb]
  refine congrArg some (funext fun a => Fin.ext ?_)
  show (dS.start (ix3 e j i) idx a + dS.window (ix3 e j i) a).toNat = _
  rw [hsum a]
  exact Int.toNat_natCast _

/-- THE SCATTERED SUM: with row `e` of the index array holding the node numbers `(rgN e, cgN e)`, the updates that land
    at `(r, j, c, i)` are the `(e, j, i)` over the edges `e` from node `c` to node `r`. -/
theorem scatter_sum (idx : IVec S4096x2 32) (upd : S4096x32x32.Idx → EReal) (rgN cgN : Fin 4096 → Fin 256)
    (hr : ∀ e : Fin 4096, idx (ix2 e (0 : Fin 2)) = BitVec.ofNat 32 (rgN e).val)
    (hc : ∀ e : Fin 4096, idx (ix2 e (1 : Fin 2)) = BitVec.ofNat 32 (cgN e).val)
    (x : S256x32x256x32.Idx → EReal) (r c : Fin 256) (j i : Fin 32) :
    Ideal.hostScatterAdd dS x idx upd (ix4 r j c i)
      = x (ix4 r j c i) + ∑ e ∈ Finset.univ.filter (fun e : Fin 4096 => rgN e = r ∧ cgN e = c), upd (ix3 e j i) := by
  -- an update that lands at `(r, j, c, i)` is `(e, j, i)` for an edge `e` from `c` to `r`
  have lands : ∀ (e' : Fin 4096) (j' i' : Fin 32), dS.resultIdx? (ix3 e' j' i') idx = some (ix4 r j c i) →
      (rgN e' = r ∧ cgN e' = c) ∧ j' = j ∧ i' = i := by
    intro e' j' i' h
    rw [resultIdx_eq idx e' j' i' _ _ (hr e') (hc e')] at h
    have h' := Option.some.inj h
    exact ⟨⟨congrFun h' 0, congrFun h' 2⟩, congrFun h' 1, congrFun h' 3⟩
  unfold Ideal.hostScatterAdd
  refine congrArg (fun z => x (ix4 r j c i) + z) ?_
  refine Finset.sum_nbij' (fun u : S4096x32x32.Idx => (u 0 : Fin 4096)) (fun e : Fin 4096 => ix3 e j i) ?_ ?_ ?_ ?_ ?_
  · intro u hu
    obtain ⟨e', j', i', rfl⟩ : ∃ (e' : Fin 4096) (j' i' : Fin 32), u = ix3 e' j' i' := ⟨u 0, u 1, u 2, eq_ix3 u⟩
    have h := lands e' j' i' (Finset.mem_filter.mp hu).2
    show e' ∈ _
    exact Finset.mem_filter.mpr ⟨Finset.mem_univ _, h.1⟩
  · intro e he
    have h := (Finset.mem_filter.mp he).2
    refine Finset.mem_filter.mpr ⟨Finset.mem_univ _, ?_⟩
    rw [resultIdx_eq idx e j i _ _ (hr e) (hc e), h.1, h.2]
  · intro u hu
    obtain ⟨e', j', i', rfl⟩ : ∃ (e' : Fin 4096) (j' i' : Fin 32), u = ix3 e' j' i' := ⟨u 0, u 1, u 2, eq_ix3 u⟩
    have h := lands e' j' i' (Finset.mem_filter.mp hu).2
    show ix3 e' j i = ix3 e' j' i'
    rw [h.2.1, h.2.2]
  · intro e he
    rfl
  · intro u hu
    obtain ⟨e', j', i', rfl⟩ : ∃ (e' : Fin 4096) (j' i' : Fin 32), u = ix3 e' j' i' := ⟨u 0, u 1, u 2, eq_ix3 u⟩
    have h := lands e' j' i' (Finset.mem_filter.mp hu).2
    show upd (ix3 e' j' i') = upd (ix3 e' j i)
    rw [h.2.1, h.2.2]

/-- "Add 256 if negative": what indexing does to an index vector first. -/
def normIx (x : IVec S4096 32) : IVec S4096 32 :=
  select (cmpi .slt x (broadcastInDim S4096 ![] bcast_S_S4096 (constantI S_ 32 0#32)))
    (addi x (broadcastInDim S4096 ![] bcast_S_S4096 (constantI S_ 32 256#32))) x

/-- A node number is not negative, so it is kept. -/
theorem normIx_apply (x : IVec S4096 32) (e : Fin 4096) (n : Fin 256) (h : x (ix1 e) = BitVec.ofNat 32 n.val) :
    normIx x (ix1 e) = BitVec.ofNat 32 n.val := by
  show Scalar.select (IntOp.cmpi .slt (x (ix1 e)) 0#32) (IntOp.addi (x (ix1 e)) 256#32) (x (ix1 e)) = _
  rw [h]
  have hs : IntOp.cmpi .slt (BitVec.ofNat 32 n.val) 0#32 = 0#1 := by
    show BitVec.ofBool ((BitVec.ofNat 32 n.val).slt 0#32) = 0#1
    rw [BitVec.slt_eq_decide, toInt_node]
    have hn : ¬ ((n.val : Int) < (0#32 : BitVec 32).toInt) := by
      rw [BitVec.toInt_zero]; exact Int.not_lt.mpr (Int.natCast_nonneg _)
    rw [decide_eq_false hn]; rfl
  rw [hs, select_zero]

/-- A vector made a one-column array reads, at row `e`, the vector at `e`. -/
theorem bcastCol_apply (x : IVec S4096 32) (e : Fin 4096) :
    broadcastInDim S4096x1 ![0] bcast_S4096_S4096x1_0 x (ix2 e (0 : Fin 1)) = x (ix1 e) := by
  unfold broadcastInDim
  refine congrArg x (funext fun a => ?_)
  match a with
  | ⟨0, _⟩ => rfl

/-- The index array: row `e` is the pair of the two normalised index vectors at `e`. -/
def idxArr (rg cg : IVec S4096 32) : IVec S4096x2 32 :=
  concatenate S4096x2 1 [⟨S4096x1, broadcastInDim S4096x1 ![0] bcast_S4096_S4096x1_0 (normIx rg)⟩,
    ⟨S4096x1, broadcastInDim S4096x1 ![0] bcast_S4096_S4096x1_0 (normIx cg)⟩] concatenates_S4096x1_S4096x1_S4096x2_d1

theorem idxArr_apply_0 (rg cg : IVec S4096 32) (e : Fin 4096) : idxArr rg cg (ix2 e (0 : Fin 2)) = normIx rg (ix1 e) := by
  unfold idxArr
  refine (concatenate_pair_apply_left (1 : Fin S4096x2.rank) _ _ concatenates_S4096x1_S4096x1_S4096x2_d1
    (ix2 e (0 : Fin 2)) rfl (ix2 e (0 : Fin 1)) ?_).trans ?_
  · intro b
    match b with
    | ⟨0, _⟩ => rfl
    | ⟨1, _⟩ => rfl
  · exact bcastCol_apply (normIx rg) e

theorem idxArr_apply_1 (rg cg : IVec S4096 32) (e : Fin 4096) : idxArr rg cg (ix2 e (1 : Fin 2)) = normIx cg (ix1 e) := by
  unfold idxArr
  refine (concatenate_pair_apply_right (1 : Fin S4096x2.rank) _ _ concatenates_S4096x1_S4096x1_S4096x2_d1
    (ix2 e (1 : Fin 2)) rfl rfl (ix2 e (0 : Fin 1)) ?_ ?_).trans ?_
  · intro b hb
    match b, hb with
    | ⟨0, _⟩, _ => rfl
    | ⟨1, _⟩, hb => exact absurd rfl hb
  · rfl
  · exact bcastCol_apply (normIx cg) e

/-- The updates: the sampled weights with the two lane axes exchanged. -/
def updArr (wm wlv ew : FVec Ideal S4096x32x32 .f32) : FVec Ideal S4096x32x32 .f32 :=
  transpose S4096x32x32 [0, 2, 1] (addf (mulf ew (Host.exp wlv)) wm) transposes_S4096x32x32_S4096x32x32_0_2_1

theorem updArr_apply (wm wlv ew : FVec Ideal S4096x32x32 .f32) (e : Fin 4096) (j i : Fin 32) :
    updArr wm wlv ew (ix3 e j i) = edgeW wm wlv ew e i j := by
  unfold updArr
  refine (transpose_apply [0, 2, 1] _ transposes_S4096x32x32_S4096x32x32_0_2_1 (ix3 e j i) (ix3 e i j) ?_).trans ?_
  · intro b
    match b with
    | ⟨0, _⟩ => rfl
    | ⟨1, _⟩ => rfl
    | ⟨2, _⟩ => rfl
  · rfl

/-- The operand the updates are added into: zero everywhere. -/
def zeros4 : FVec Ideal S256x32x256x32 .f32 :=
  broadcastInDim S256x32x256x32 ![] bcast_S_S256x32x256x32 (constant (F := Ideal) S_ .f32 0x00000000#32)

theorem zeros4_apply (y : S256x32x256x32.Idx) : zeros4 y = 0 := by
  show Ideal.ofBits .f32 0x00000000#32 = 0
  simp [Ideal.ofBits, Ideal.ieee]

/-- The dense matrix as the host operations compose it. -/
theorem dense_term (c : Dev nD) : (V m c main_v20 : S8192x8192.Idx → EReal) =
    truncf .bf16 (shapeCast S8192x8192
      (Host.scatterAdd dS zeros4
        (idxArr (m ((c : Thread nD τ).loc main_arg1)) (m ((c : Thread nD τ).loc main_arg2)))
        (updArr (m ((c : Thread nD τ).loc main_arg3)) (m ((c : Thread nD τ).loc main_arg4)) (m ((c : Thread nD τ).loc main_arg5))))
      shapeCasts_S256x32x256x32_S8192x8192 : FVec Ideal S8192x8192 .f32) bitsLt_bf16_f32 := by
  show StableHlo.after hostOps0 (fun b => m (c, b)) (Proc.devRef .tc main_v20) = _
  after_results_simp
  rfl

/-- The converted `x` as the host operations compose it: a change of float format, the identity on the extended reals. -/
theorem x_term (c : Dev nD) : (V m c main_v21 : S8192x1024.Idx → EReal) = m ((c : Thread nD τ).loc main_arg0) := by
  show StableHlo.after hostOps0 (fun b => m (c, b)) (Proc.devRef .tc main_v21) = _
  after_results_simp
  rfl

/-- The bias column as the host operations compose it. -/
theorem bias_term (c : Dev nD) : (V m c main_v25 : S8192x1.Idx → EReal) =
    shapeCast S8192x1 (addf (mulf (m ((c : Thread nD τ).loc main_arg8) : FVec Ideal S8192 .f32)
      (Host.exp (m ((c : Thread nD τ).loc main_arg7) : FVec Ideal S8192 .f32)))
      (m ((c : Thread nD τ).loc main_arg6) : FVec Ideal S8192 .f32) : FVec Ideal S8192 .f32) shapeCasts_S8192_S8192x1 := by
  show StableHlo.after hostOps0 (fun b => m (c, b)) (Proc.devRef .tc main_v25) = _
  after_results_simp
  rfl

/-- THE DENSE MATRIX: with both index vectors holding node numbers, entry `[R, K]` of the scattered, reshaped and
    converted array is `denseW` of the weight arguments. -/
theorem denseArr_apply (c : Dev nD) (rgN cgN : Fin 4096 → Fin 256)
    (hr : ∀ e : Fin 4096, m ((c : Thread nD τ).loc main_arg1) (ix1 e) = BitVec.ofNat 32 (rgN e).val)
    (hc : ∀ e : Fin 4096, m ((c : Thread nD τ).loc main_arg2) (ix1 e) = BitVec.ofNat 32 (cgN e).val) (R K : Fin 8192) :
    denseArr m c (ix2 R K) = denseW rgN cgN (m ((c : Thread nD τ).loc main_arg3)) (m ((c : Thread nD τ).loc main_arg4))
      (m ((c : Thread nD τ).loc main_arg5)) R K := by
  have hr' : ∀ e : Fin 4096, idxArr (m ((c : Thread nD τ).loc main_arg1)) (m ((c : Thread nD τ).loc main_arg2)) (ix2 e (0 : Fin 2))
      = BitVec.ofNat 32 (rgN e).val := fun e => by
    rw [idxArr_apply_0]; exact normIx_apply _ e (rgN e) (hr e)
  have hc' : ∀ e : Fin 4096, idxArr (m ((c : Thread nD τ).loc main_arg1)) (m ((c : Thread nD τ).loc main_arg2)) (ix2 e (1 : Fin 2))
      = BitVec.ofNat 32 (cgN e).val := fun e => by
    rw [idxArr_apply_1]; exact normIx_apply _ e (cgN e) (hc e)
  refine (congrFun (dense_term m c) (ix2 R K)).trans ?_
  refine (truncf_apply _ bitsLt_bf16_f32 (ix2 R K)).trans ?_
  -- row `R = 32 r + j`, column `K = 32 c + i` of the reshaped array is entry `(r, j, c, i)` of the scattered one
  refine (shapeCast_apply _ shapeCasts_S256x32x256x32_S8192x8192 (ix2 R K)
    (ix4 (nodeOf R) (laneOf R) (nodeOf K) (laneOf K)) ?_).trans ?_
  · rw [Shape.rowMajor_val_four, Shape.rowMajor_val_two]
    show (((R.val / 32) * 32 + R.val % 32) * 256 + K.val / 32) * 32 + K.val % 32 = R.val * 8192 + K.val
    have := R.isLt; have := K.isLt
    omega
  · show Ideal.hostScatterAdd dS zeros4 _ _ _ = _
    rw [scatter_sum _ _ rgN cgN hr' hc', zeros4_apply, zero_add]
    unfold denseW
    exact Finset.sum_congr rfl fun e _ => updArr_apply _ _ _ e _ _

/-- The converted `x` is `x` (a change of float format is the identity on the extended reals). -/
theorem xArr_eq (c : Dev nD) : xArr m c = m ((c : Thread nD τ).loc main_arg0) :=
  x_term m c

/-- The bias column at row `R` is the sampled bias of the row. -/
theorem biasArr_apply (c : Dev nD) (R : Fin 8192) :
    biasArr m c (ix2 R (0 : Fin 1)) = biasAt (m ((c : Thread nD τ).loc main_arg6)) (m ((c : Thread nD τ).loc main_arg7))
      (m ((c : Thread nD τ).loc main_arg8)) R := by
  refine (congrFun (bias_term m c) (ix2 R (0 : Fin 1))).trans ?_
  refine (shapeCast_apply _ shapeCasts_S8192_S8192x1 (ix2 R (0 : Fin 1)) (ix1 R) ?_).trans ?_
  · rw [Shape.rowMajor_val_one, Shape.rowMajor_val_two]
    show R.val = R.val * 1 + 0
    omega
  · rfl

end Cert.Proof.KI.Host

end
-- ==== Proof.KI.Acc.lean ====
import proofs.«407546_j41197326303442_3_alg».proof.Proof.KI.Body
import proofs.«407546_j41197326303442_3_alg».proof.Proof.KI.Host
import Idealize.ShloMosaic.PureOps.Ideal.Laws
import Idealize.ShloMosaic.Lib.ValueIdx
import Idealize.ShloMosaic.Lib.ValueLayout

set_option maxRecDepth 16384

noncomputable section

namespace Cert.Proof.KI.Acc

open Idealize.ShloMosaic Idealize.ShloMosaic.TcCoe Idealize.ShloMosaic.ValueIdx Idealize.SL.Sem
open Cert.KernelIdeal Cert.KernelIdeal.Gen Cert.Proof.KI Cert.Proof.KI.Host

variable (m : (ℓ : Loc nD τ sig) → Buf (Elt Ideal) ℓ)

/-! ## The payloads at an index

The product of a [1024, 2048] block with a [2048, 1024] slab, read at `(p, q)`, is the sum over the 2048 contracted
positions; the update adds it to the accumulator; the last step adds the bias column, each row's entry along the row. -/

theorem lhs_mm_0 (j : S1024x1024.Idx) (k : dot_S1024x2048_S2048x1024_S1024x1024_1_0_0_1_n_n.contr.Idx) :
    (dot_S1024x2048_S2048x1024_S1024x1024_1_0_0_1_n_n.lhsIdx j k 0).val = (j 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_mm_1 (j : S1024x1024.Idx) (k : dot_S1024x2048_S2048x1024_S1024x1024_1_0_0_1_n_n.contr.Idx) :
    (dot_S1024x2048_S2048x1024_S1024x1024_1_0_0_1_n_n.lhsIdx j k 1).val = (k ⟨0, by decide⟩).val :=
  dot_S1024x2048_S2048x1024_S1024x1024_1_0_0_1_n_n.lhsIdx_val_of_single rfl j k
theorem rhs_mm_0 (j : S1024x1024.Idx) (k : dot_S1024x2048_S2048x1024_S1024x1024_1_0_0_1_n_n.contr.Idx) :
    (dot_S1024x2048_S2048x1024_S1024x1024_1_0_0_1_n_n.rhsIdx j k 0).val = (k ⟨0, by decide⟩).val :=
  dot_S1024x2048_S2048x1024_S1024x1024_1_0_0_1_n_n.rhsIdx_val_of_single rfl j k
theorem rhs_mm_1 (j : S1024x1024.Idx) (k : dot_S1024x2048_S2048x1024_S1024x1024_1_0_0_1_n_n.contr.Idx) :
    (dot_S1024x2048_S2048x1024_S1024x1024_1_0_0_1_n_n.rhsIdx j k 1).val = (j 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The point's product at `(p, q)`: row `p` of the block against column `q` of the slab. -/
theorem pay1_apply (x : Vec Ideal S2048x1024 .bf16) (w : Vec Ideal S1024x2048 .bf16) (p q : Fin 1024) :
    k0_pay1 (F := Ideal) x w (ix2 p q) = ∑ kk : Fin 2048, w (ix2 p kk) * x (ix2 kk q) := by
  unfold k0_pay1
  rw [shapeCast_self, shapeCast_self]
  simp only [matmul]
  rw [Ideal.matmul_constant_zero_apply, ← Equiv.sum_comp (ValueIdx.contrEquiv1 dot_S1024x2048_S2048x1024_S1024x1024_1_0_0_1_n_n 2048 rfl rfl).symm]
  refine Finset.sum_congr rfl fun kk _ => ?_
  have hk := ValueIdx.contrEquiv1_symm_val dot_S1024x2048_S2048x1024_S1024x1024_1_0_0_1_n_n 2048 rfl rfl kk
  have el : dot_S1024x2048_S2048x1024_S1024x1024_1_0_0_1_n_n.lhsIdx (ix2 p q) ((ValueIdx.contrEquiv1 dot_S1024x2048_S2048x1024_S1024x1024_1_0_0_1_n_n 2048 rfl rfl).symm kk) = ix2 p kk := funext fun a => Fin.ext (by
    match a with
    | ⟨0, _⟩ => exact lhs_mm_0 _ _
    | ⟨1, _⟩ => exact (lhs_mm_1 _ _).trans hk)
  have er : dot_S1024x2048_S2048x1024_S1024x1024_1_0_0_1_n_n.rhsIdx (ix2 p q) ((ValueIdx.contrEquiv1 dot_S1024x2048_S2048x1024_S1024x1024_1_0_0_1_n_n 2048 rfl rfl).symm kk) = ix2 kk q := funext fun a => Fin.ext (by
    match a with
    | ⟨0, _⟩ => exact (rhs_mm_0 _ _).trans hk
    | ⟨1, _⟩ => exact rhs_mm_1 _ _)
  rw [el, er]

/-- The update at `(p, q)`: what was there plus the point's product. -/
theorem pay2_apply (x : Vec Ideal S2048x1024 .bf16) (w : Vec Ideal S1024x2048 .bf16) (a : Vec Ideal S1024x1024 .f32) (p q : Fin 1024) :
    k0_pay2 (F := Ideal) x w a (ix2 p q) = a (ix2 p q) + ∑ kk : Fin 2048, w (ix2 p kk) * x (ix2 kk q) := by
  unfold k0_pay2
  rw [shapeCast_self, addf_apply, pay1_apply]

/-- The last step at `(p, q)`: what was there plus row `p`'s bias. -/
theorem pay3_apply (a : Vec Ideal S1024x1024 .f32) (b : Vec Ideal S1024x1 .f32) (p q : Fin 1024) :
    k0_pay3 (F := Ideal) a b (ix2 p q) = a (ix2 p q) + b (ix2 p (0 : Fin 1)) := by
  unfold k0_pay3
  rw [shapeCast_self, shapeCast_self, addf_apply]
  refine congrArg (a (ix2 p q) + ·) ?_
  refine broadcastTo_apply b broadcasts_S1024x1_S1024x1024 (ix2 p q) (ix2 p (0 : Fin 1)) fun a => ?_
  match a with
  | ⟨0, _⟩ => show p.val = if (1024 : Nat) = 1 then 0 else p.val; rw [if_neg (by decide)]
  | ⟨1, _⟩ => show (0 : Nat) = if (1 : Nat) = 1 then 0 else q.val; rw [if_pos rfl]

/-! ## The blocks read where they sit

Point `t` is row block `t / 4` at position `t % 4` of the contracted axis.  A block's element sits in its array, on each
axis, at the block index times the block's size plus its own coordinate. -/

/-- The index maps over the grid: the matrix's block is `(t / 4, t % 4)`, `x` is resident whole at block `(0, 0)`, the
    bias block is `(t / 4, 0)`, and the point's position on the contracted axis is `t % 4`. -/
theorem idx_facts : ∀ t : Fin cfg0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ ((grid0.coords t) 1).val = t.val % 4 :=
  (by decide +kernel : ∀ t : Fin grid0.N, _)

/-- Entry `(p, kk)` of the matrix's block at point `t` is the matrix at row `1024 (t / 4) + p`, column `2048 (t % 4) + kk`. -/
theorem wBlk_apply (c : Dev nD) (t : Fin cfg0.N) (p : Fin 1024) (kk : Fin 2048) (R K : Fin 8192)
    (hR : R.val = 1024 * (t.val / 4) + p.val) (hK : K.val = 2048 * (t.val % 4) + kk.val) :
    wBlk m c t (ix2 p kk) = denseArr m c (ix2 R K) := by
  obtain ⟨e0, e1, -⟩ := idx_facts t
  show V m c main_v20 (((cfg0.win 0).blk t).view.emb (ix2 p kk)) = V m c main_v20 (ix2 R K)
  refine congrArg _ (funext fun a => Fin.ext ?_)
  match a with
  | ⟨0, _⟩ => show win0_0.index t (0 : Fin 2) * 1024 + 1 * p.val = R.val; omega
  | ⟨1, _⟩ => show win0_0.index t (1 : Fin 2) * 2048 + 1 * kk.val = K.val; omega

/-- The resident `x` is the whole array at every point. -/
theorem xAll_apply (c : Dev nD) (t : Fin cfg0.N) (i : S8192x1024.Idx) : xAll m c t i = xArr m c i := by
  obtain ⟨-, -, e2, e3, -⟩ := idx_facts t
  show V m c main_v21 (((cfg0.win 1).blk t).view.emb i) = V m c main_v21 i
  refine congrArg _ (funext fun a => Fin.ext ?_)
  match a with
  | ⟨0, _⟩ => show win0_1.index t (0 : Fin 2) * 8192 + 1 * (i 0).val = (i 0).val; omega
  | ⟨1, _⟩ => show win0_1.index t (1 : Fin 2) * 1024 + 1 * (i 1).val = (i 1).val; omega

/-- Entry `(kk, q)` of the 2048 rows of `x` the point multiplies is `x` at row `2048 (t % 4) + kk`, column `q`. -/
theorem slab_apply (c : Dev nD) (t : Fin cfg0.N) (kk : Fin 2048) (q : Fin 1024) (K : Fin 8192)
    (hK : K.val = 2048 * (t.val % 4) + kk.val) :
    View.ld (xAll m c t) (slab (grid0.coords t)) (ix2 kk q) = xArr m c (ix2 K q) := by
  obtain ⟨-, -, -, -, -, -, e6⟩ := idx_facts t
  show xAll m c t ((slab (grid0.coords t)).idx (ix2 kk q)) = _
  rw [xAll_apply]
  refine congrArg _ (funext fun a => Fin.ext ?_)
  match a with
  | ⟨0, _⟩ =>
    show k0_off1 (grid0.coords t) 0 + 1 * kk.val = K.val
    rw [k0_off1_eq]
    show 2048 * ((grid0.coords t) 1).val + 1 * kk.val = K.val
    omega
  | ⟨1, _⟩ =>
    show k0_off1 (grid0.coords t) 1 + 1 * q.val = q.val
    rw [k0_off1_eq]
    show 0 + 1 * q.val = q.val
    omega

/-- Row `p` of the bias block at point `t` is the bias column at row `1024 (t / 4) + p`. -/
theorem bBlk_apply (c : Dev nD) (t : Fin cfg0.N) (p : Fin 1024) (R : Fin 8192) (hR : R.val = 1024 * (t.val / 4) + p.val) :
    bBlk m c t (ix2 p (0 : Fin 1)) = biasArr m c (ix2 R (0 : Fin 1)) := by
  obtain ⟨-, -, -, -, e4, e5, -⟩ := idx_facts t
  show V m c main_v25 (((cfg0.win 2).blk t).view.emb (ix2 p (0 : Fin 1))) = V m c main_v25 (ix2 R (0 : Fin 1))
  refine congrArg _ (funext fun a => Fin.ext ?_)
  match a with
  | ⟨0, _⟩ => show win0_2.index t (0 : Fin 2) * 1024 + 1 * p.val = R.val; omega
  | ⟨1, _⟩ => show win0_2.index t (1 : Fin 2) * 1 + 1 * 0 = 0; omega

/-! ## The four points of a row block, added up -/

/-- Column `kk` of block `k` of the contracted axis. -/
def colIx (k : Fin 4) (kk : Fin 2048) : Fin 8192 := ⟨2048 * k.val + kk.val, by have := k.isLt; have := kk.isLt; omega⟩

/-- The point at position `k` of row block `I` multiplies row `1024 I + p` of the matrix against column `q` of `x` over
    the 2048 columns of block `k`. -/
theorem prod_apply (c : Dev nD) (I : Fin 8) (k : Fin 4) (t : Fin cfg0.N) (ht : t.val = 4 * I.val + k.val) (p q : Fin 1024) :
    (∑ kk : Fin 2048, wBlk m c t (ix2 p kk) * View.ld (xAll m c t) (slab (grid0.coords t)) (ix2 kk q))
      = ∑ kk : Fin 2048, denseArr m c (ix2 (rowIx I p) (colIx k kk)) * xArr m c (ix2 (colIx k kk) q) := by
  have hk := k.isLt
  refine Finset.sum_congr rfl fun kk _ => ?_
  rw [wBlk_apply m c t p kk (rowIx I p) (colIx k kk)
      (by show 1024 * I.val + p.val = 1024 * (t.val / 4) + p.val; omega)
      (by show 2048 * k.val + kk.val = 2048 * (t.val % 4) + kk.val; omega),
    slab_apply m c t kk q (colIx k kk) (by show 2048 * k.val + kk.val = 2048 * (t.val % 4) + kk.val; omega)]

/-- At the first point of a row block the accumulator is the point's product. -/
theorem step_first (c : Dev nD) (n : ℕ) (hn : n < cfg0.N) (h : n % 4 = 0) (p q : Fin 1024) :
    accAt (F := Ideal) m c n hn (ix2 p q)
      = ∑ kk : Fin 2048, wBlk m c ⟨n, hn⟩ (ix2 p kk) * View.ld (xAll m c ⟨n, hn⟩) (slab (grid0.coords ⟨n, hn⟩)) (ix2 kk q) :=
  (congrFun (accAt_first m c ⟨n, hn⟩ h) (ix2 p q)).trans (pay1_apply _ _ p q)

/-- At a middle point: what the point before left, plus the point's product. -/
theorem step_middle (c : Dev nD) (n n' : ℕ) (hn : n < cfg0.N) (hn' : n' < cfg0.N) (e : n = n' + 1)
    (h0 : ¬n % 4 = 0) (h3 : ¬n % 4 = 3) (p q : Fin 1024) :
    accAt (F := Ideal) m c n hn (ix2 p q)
      = accAt m c n' hn' (ix2 p q)
        + ∑ kk : Fin 2048, wBlk m c ⟨n, hn⟩ (ix2 p kk) * View.ld (xAll m c ⟨n, hn⟩) (slab (grid0.coords ⟨n, hn⟩)) (ix2 kk q) := by
  subst e
  exact (congrFun (accAt_middle m c ⟨n' + 1, hn⟩ h0 h3) (ix2 p q)).trans (pay2_apply _ _ _ p q)

/-- At the last point: that, plus the row's bias. -/
theorem step_last (c : Dev nD) (n n' : ℕ) (hn : n < cfg0.N) (hn' : n' < cfg0.N) (e : n = n' + 1)
    (h3 : n % 4 = 3) (p q : Fin 1024) :
    accAt (F := Ideal) m c n hn (ix2 p q)
      = accAt m c n' hn' (ix2 p q)
        + (∑ kk : Fin 2048, wBlk m c ⟨n, hn⟩ (ix2 p kk) * View.ld (xAll m c ⟨n, hn⟩) (slab (grid0.coords ⟨n, hn⟩)) (ix2 kk q))
        + bBlk m c ⟨n, hn⟩ (ix2 p (0 : Fin 1)) := by
  subst e
  refine (congrFun (accAt_last m c ⟨n' + 1, hn⟩ h3) (ix2 p q)).trans ((pay3_apply _ _ p q).trans ?_)
  exact congrArg (· + bBlk m c ⟨n' + 1, hn⟩ (ix2 p (0 : Fin 1))) (pay2_apply _ _ _ p q)

/-- A sum over the 8192 columns is the sum of the four sums over the 2048 columns of each block: the columns are
    `2048 k + kk`, once each, and addition in a commutative monoid may be regrouped freely. -/
theorem sum_split {M : Type} [AddCommMonoid M] (f : Fin 8192 → M) :
    ∑ K : Fin 8192, f K
      = (∑ kk : Fin 2048, f (colIx 0 kk)) + (∑ kk : Fin 2048, f (colIx 1 kk)) + (∑ kk : Fin 2048, f (colIx 2 kk))
        + ∑ kk : Fin 2048, f (colIx 3 kk) := by
  have he : ∀ (k : Fin 4) (kk : Fin 2048), (finProdFinEquiv : Fin 4 × Fin 2048 ≃ Fin 8192) (k, kk) = colIx k kk :=
    fun k kk => Fin.ext (by show kk.val + 2048 * k.val = 2048 * k.val + kk.val; omega)
  rw [← Equiv.sum_comp (finProdFinEquiv : Fin 4 × Fin 2048 ≃ Fin 8192) f, Fintype.sum_prod_type, Fin.sum_univ_four]
  simp only [he]

/-- THE ACCUMULATOR AFTER A ROW BLOCK'S LAST POINT, on the extended reals: entry `(p, q)` of row block `I` is row
    `1024 * I + p` of the dense matrix against column `q` of `x`, summed over all 8192 columns of the matrix (the four
    points' products, each a sum over 2048 of them, added up), plus the row's bias. -/
theorem accAt_lastPt (c : Dev nD) (I : Fin 8) (p q : Fin 1024) :
    accAt (F := Ideal) m c (lastPt I).val (lastPt I).isLt (ix2 p q)
      = (∑ K : Fin 8192, denseArr m c (ix2 (rowIx I p) K) * xArr m c (ix2 K q)) + biasArr m c (ix2 (rowIx I p) (0 : Fin 1)) := by
  have hI := I.isLt
  have hN : cfg0.N = 32 := N_0
  have h0 : 4 * I.val < cfg0.N := by omega
  have h1 : 4 * I.val + 1 < cfg0.N := by omega
  have h2 : 4 * I.val + 2 < cfg0.N := by omega
  have h3 : 4 * I.val + 3 < cfg0.N := by omega
  have E0 := step_first m c (4 * I.val) h0 (by omega) p q
  have E1 := step_middle m c (4 * I.val + 1) (4 * I.val) h1 h0 rfl (by omega) (by omega) p q
  have E2 := step_middle m c (4 * I.val + 2) (4 * I.val + 1) h2 h1 rfl (by omega) (by omega) p q
  have E3 := step_last m c (4 * I.val + 3) (4 * I.val + 2) h3 h2 rfl (by omega) p q
  rw [prod_apply m c I 0 ⟨4 * I.val, h0⟩ rfl p q] at E0
  rw [prod_apply m c I 1 ⟨4 * I.val + 1, h1⟩ rfl p q, E0] at E1
  rw [prod_apply m c I 2 ⟨4 * I.val + 2, h2⟩ rfl p q, E1] at E2
  rw [prod_apply m c I 3 ⟨4 * I.val + 3, h3⟩ rfl p q, E2,
    bBlk_apply m c ⟨4 * I.val + 3, h3⟩ p (rowIx I p) (by show 1024 * I.val + p.val = 1024 * ((4 * I.val + 3) / 4) + p.val; omega)] at E3
  refine E3.trans (congrArg (· + biasArr m c (ix2 (rowIx I p) (0 : Fin 1))) ?_)
  exact (sum_split (fun K => denseArr m c (ix2 (rowIx I p) K) * xArr m c (ix2 K q))).symm

end Cert.Proof.KI.Acc

end
-- ==== Proof.KI.Cover.lean ====
import proofs.«407546_j41197326303442_3_alg».proof.Proof.KI.Body
import Idealize.ShloMosaic.Lib.Pipeline.Value
import Idealize.ShloMosaic.Lib.ValueIdx

set_option maxRecDepth 16384

noncomputable section

namespace Cert.Proof.KI.Cover

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Proof.KI

variable {F : FTy → Type} [FloatOps F]
variable (m : (ℓ : Loc nD τ sig) → Buf (Elt F) ℓ)

/-- The output window's block index, decided once over the grid: on the row axis the point's quotient by 4 (the row
    block), on the column axis 0 (one block spans all columns). -/
theorem idx_facts : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

/-- The accumulator's value depends on the point's position only, not on how the bound is witnessed. -/
theorem accAt_congr (c : Dev nD) {n n' : ℕ} (h : n = n') (hn : n < cfg0.N) (hn' : n' < cfg0.N) :
    accAt m c n hn = accAt m c n' hn' := by
  subst h; rfl

/-- WHAT A WRITING POINT WRITES BACK is its block of `G`: a point with `k = 3` is the last point of row block
    `I = t / 4`; the window is uncut, so the write-back moves the whole accumulator, which by hypothesis is `G` at rows
    `1024 * I + p` — the rows of the point's block, whose row offset is block index times block height. -/
theorem flushed_eq (c : Dev nD) (G : Vec F S8192x1024 .f32)
    (hG : ∀ (I : Fin 8) (p q : Fin 1024), accAt m c (lastPt I).val (lastPt I).isLt (ix2 p q) = G (ix2 (rowIx I p) q))
    (t : Fin cfg0.N) (hf : (cfg0.win 3).flush t = true) :
    (dats m 0 c).flushed 3 t = ((cfg0.win 3).blk t).view.read (Elt F) G := by
  have h3 : t.val % 4 = 3 := (flush0_3 t).mp hf
  have hN : t.val < 32 := lt_of_lt_of_eq t.isLt (show cfg0.N = 32 from N_0)
  show (cfg0.win 3).cut (grid0.coords t) ((dats m 0 c).after 3 t) = _
  rw [after0_3]
  obtain ⟨e0, e1⟩ := idx_facts t
  funext j
  show accAt m c t.val t.isLt ((cfg0.win 3).xinj (grid0.coords t) j) = G (((cfg0.win 3).blk t).view.emb j)
  have hj0 : (j 0).val < 1024 := (j 0).isLt
  have hj1 : (j 1).val < 1024 := (j 1).isLt
  have hx : (cfg0.win 3).xinj (grid0.coords t) j = (ix2 (⟨(j 0).val, hj0⟩ : Fin 1024) (⟨(j 1).val, hj1⟩ : Fin 1024) : S1024x1024.Idx) := by
    funext a
    match a with
    | ⟨0, _⟩ => rfl
    | ⟨1, _⟩ => rfl
  rw [hx, accAt_congr m c (show t.val = (lastPt ⟨t.val / 4, by omega⟩).val from by show t.val = 4 * (t.val / 4) + 3; omega) t.isLt
      (lastPt ⟨t.val / 4, by omega⟩).isLt, hG]
  congr 1
  funext a; apply Fin.ext
  match a with
  | ⟨0, _⟩ => show 1024 * (t.val / 4) + (j 0).val = win0_3.index t (0 : Fin 2) * 1024 + 1 * (j 0).val; omega
  | ⟨1, _⟩ => show (j 1).val = win0_3.index t (1 : Fin 2) * 1024 + 1 * (j 1).val; omega

/-- An index of the array is in point `t`'s block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v26).slice (win0_3.rect t)).set ↔ _
  rw [View.set_slice_whole, Rect.mem_set_unit]
  exact Iff.rfl

/-- EVERY INDEX IS COVERED: row `r` lies in row block `r / 1024`, written back after that block's last point. -/
theorem covered (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  refine ⟨lastPt ⟨(i 0).val / 1024, by omega⟩, (flush0_3 _).mpr (by show (4 * ((i 0).val / 1024) + 3) % 4 = 3; omega), ?_⟩
  rw [mem_blk]
  obtain ⟨e0, e1⟩ := idx_facts (lastPt ⟨(i 0).val / 1024, by omega⟩)
  have e0' : win0_3.index (lastPt ⟨(i 0).val / 1024, by omega⟩) (0 : Fin 2) = (i 0).val / 1024 := by
    rw [e0]; show (4 * ((i 0).val / 1024) + 3) / 4 = (i 0).val / 1024; omega
  intro a
  match a with
  | ⟨0, _⟩ => show win0_3.index (lastPt ⟨(i 0).val / 1024, by omega⟩) (0 : Fin 2) * 1024 ≤ (i 0).val ∧ (i 0).val < win0_3.index (lastPt ⟨(i 0).val / 1024, by omega⟩) (0 : Fin 2) * 1024 + 1024; omega
  | ⟨1, _⟩ => show win0_3.index (lastPt ⟨(i 0).val / 1024, by omega⟩) (1 : Fin 2) * 1024 ≤ (i 1).val ∧ (i 1).val < win0_3.index (lastPt ⟨(i 0).val / 1024, by omega⟩) (1 : Fin 2) * 1024 + 1024; omega

/-- FROM BLOCKS TO THE ARRAY: the eight row blocks of the output tile it, each written back once after its last
    point; so if a whole-array function `G` agrees, on every row block, with what the accumulator holds after the block's
    last point, the output array ends as `G`. -/
theorem arrAt_eq (c : Dev nD) (G : Vec F S8192x1024 .f32)
    (hG : ∀ (I : Fin 8) (p q : Fin 1024), accAt m c (lastPt I).val (lastPt I).isLt (ix2 p q) = G (ix2 (rowIx I p) q)) :
    (dats m 0 c).arrAt 3 cfg0.N = G :=
  (dats m 0 c).arrAt_eq_of_cover 3 G (flushed_eq m c G hG) covered

end Cert.Proof.KI.Cover

end
-- ==== Proof.KI.Value.lean ====
/-
  The kernel's output array on the extended reals, as the dense form of the arguments.

  The output array ends as its eight row blocks, each what the accumulator held after the block's last grid point;
  that is row `R` of the dense matrix against column `b` of `x`, summed over the 8192 columns, plus the row's bias;
  and the dense matrix's entries, `x` and the bias column are what the host operations before the pallas_call made
  of the arguments: the scattered edge weights, `x` itself, the sampled bias.  So the array is `denseAt` of the
  arguments, index by index.  The scalar the program returns beside it is the zero constant.
-/
import proofs.«407546_j41197326303442_3_alg».proof.Proof.KI.Body
import proofs.«407546_j41197326303442_3_alg».proof.Proof.KI.Host
import proofs.«407546_j41197326303442_3_alg».proof.Proof.KI.Acc
import proofs.«407546_j41197326303442_3_alg».proof.Proof.KI.Cover
import proofs.«407546_j41197326303442_3_alg».proof.Proof.Spec
import Idealize.ShloMosaic.Lib.StableHlo.Run

set_option maxRecDepth 16384

noncomputable section

namespace Cert.Proof.KI.Value

open Idealize.ShloMosaic Idealize.ShloMosaic.TcCoe Idealize.ShloMosaic.ValueIdx Idealize.SL.Sem
open Cert.KernelIdeal Cert.KernelIdeal.Gen Cert.Proof.KI Cert.Spec

variable (m : (ℓ : Loc nD τ sig) → Buf (Elt Ideal) ℓ)

/-- THE OUTPUT ARRAY: with both index vectors holding node numbers, the result array after the run is the dense form
    of the arguments. -/
theorem out_eq (c : Dev nD) (rgN cgN : Fin 4096 → Fin 256)
    (hr : ∀ e : Fin 4096, m ((c : Thread nD τ).loc main_arg1) (ix1 e) = BitVec.ofNat 32 (rgN e).val)
    (hc : ∀ e : Fin 4096, m ((c : Thread nD τ).loc main_arg2) (ix1 e) = BitVec.ofNat 32 (cgN e).val) :
    (dats (F := Ideal) m 0 c).arrAt 3 cfg0.N
      = fun y : S8192x1024.Idx => denseAt (m ((c : Thread nD τ).loc main_arg0)) rgN cgN
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (y 0) (y 1) := by
  refine Cover.arrAt_eq m c _ (fun I p q => ?_)
  rw [Acc.accAt_lastPt m c I p q]
  simp only [Host.denseArr_apply m c rgN cgN hr hc, Host.xArr_eq m c, Host.biasArr_apply m c]
  rfl

/-- The scalar result: the one host operation after the pallas_call writes the zero constant. -/
theorem tail_cst (c : Dev nD) :
    Pipeline.afterTail₀ cfgs (dats (F := Ideal) m) 0 (V0 m) [hostOps1] c main_cst_3 = constant (F := Ideal) S_ .f32 0x00000000#32 := by
  unfold Pipeline.afterTail₀
  show StableHlo.after hostOps1 _ (Proc.devRef .tc main_cst_3) = _
  after_results

end Cert.Proof.KI.Value

end
-- ==== Proof.lean ====
/-
  The certificate of the block-sparse Bayesian linear layer: a dense tiled matmul kernel against an edge-wise reference.

  THE REFERENCE samples a 32 x 32 weight block per graph edge, `v[e] = eps_w[e] * exp(log_var[e]) + mean[e]`, multiplies
  each edge's block with the 32 rows of `x` that belong to the edge's input node (a gather by `col_g`), adds the edges'
  contributions into their output nodes' rows (a segment sum by `row_g`) and adds the sampled bias.

  THE KERNEL first scatters the same blocks (transposed) into one dense [8192, 8192] matrix `W`, edges between the
  same pair of nodes added up, and then runs ONE dense matmul `W · x` on the matrix unit, tiled 8 row blocks by 4 blocks
  of the contracted axis with the output block as the accumulator, the bias added at the last block.

  On the extended reals the two are the same function of the arguments when `x` and the weights are finite
  (products must distribute over the per-entry sums of `W`) and every entry of `row_g` and `col_g` is a node number in
  `[0, 256)` (outside that range the two programs index differently: the kernel's scatter wraps a negative row where the
  segment sum drops it, and drops a column the reference's gather clamps).

  The parts: `Spec` states the edge-wise and the dense form and proves them equal; `Pre` decodes the precondition;
  `RefValue` reads the reference's result as the edge-wise form; `KI/Runs`, `KI/Body` run the kernel's body in its three
  control cases and launch the pipeline (`Kn/…` is the same text for the word-level program); `KI/Host` reads the arrays
  the host code stages, `KI/Acc` the accumulator after a row block's last point, `KI/Cover` the array from its row
  blocks, `KI/Value` puts them together: the kernel's result is the dense form.  The idealization rewrote nothing, so
  `preserves` is trivial.
-/
import proofs.«407546_j41197326303442_3_alg».proof.Defs
import proofs.«407546_j41197326303442_3_alg».proof.Proof.Gen.Kernel
import proofs.«407546_j41197326303442_3_alg».proof.Proof.Gen.Kernel.Skeleton
import proofs.«407546_j41197326303442_3_alg».proof.Proof.Gen.Kernel.Launch
import proofs.«407546_j41197326303442_3_alg».proof.Proof.Gen.Kernel.Points
import proofs.«407546_j41197326303442_3_alg».proof.Proof.Gen.Kernel.Frame
import proofs.«407546_j41197326303442_3_alg».proof.Proof.Gen.KernelIdeal
import proofs.«407546_j41197326303442_3_alg».proof.Proof.Gen.KernelIdeal.Skeleton
import proofs.«407546_j41197326303442_3_alg».proof.Proof.Gen.KernelIdeal.Launch
import proofs.«407546_j41197326303442_3_alg».proof.Proof.Gen.KernelIdeal.Points
import proofs.«407546_j41197326303442_3_alg».proof.Proof.Gen.KernelIdeal.Frame
import proofs.«407546_j41197326303442_3_alg».proof.Proof.Gen.ReferenceIdeal
import proofs.«407546_j41197326303442_3_alg».proof.Proof.Gen.ReferenceIdeal.Run
import proofs.«407546_j41197326303442_3_alg».proof.Proof.Gen.ReferenceIdeal.Read
import proofs.«407546_j41197326303442_3_alg».proof.Proof.Gen.Pre_finite_inputs
import proofs.«407546_j41197326303442_3_alg».proof.Proof.Spec
import proofs.«407546_j41197326303442_3_alg».proof.Proof.Pre
import proofs.«407546_j41197326303442_3_alg».proof.Proof.RefValue
import proofs.«407546_j41197326303442_3_alg».proof.Proof.Kn.Body
import proofs.«407546_j41197326303442_3_alg».proof.Proof.KI.Body
import proofs.«407546_j41197326303442_3_alg».proof.Proof.KI.Value
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames -/

theorem frame_k : Cert.frame_Kernel := fun m ρ _ => Cert.Proof.Kn.frame (F := Bits) m ρ
theorem frame_ki : Cert.frame_KernelIdeal := fun m ρ _ => Cert.Proof.KI.frame (F := Ideal) m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-! ## The two results are one function -/

section Agree

open Cert.KernelIdeal in
/-- Under the precondition, on each device, the reference's result term of the kernel's argument arrays is the array the
    kernel's run leaves: the first is the edge-wise form, the second the dense form, and the two forms agree on finite
    weights and a finite `x`. -/
theorem results_agree (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = fun _ => 1#1) :
    Cert.ReferenceIdeal.Read.val_main_v21 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8))
      = (Cert.Proof.KI.dats (F := Ideal) m 0 c).arrAt 3 cfg0.N := by
  obtain ⟨hx, hwm, hwlv, hew, rgN, cgN, hr, hc⟩ := Cert.Proof.Pre.decode _ _ _ _ _ _ _ _ _ hpre
  rw [Cert.Proof.KI.Value.out_eq m c rgN cgN hr hc]
  refine (Cert.Proof.Ref.result_eq _ _ _ _ _ _ _ _ _ rgN cgN hr hc).trans ?_
  funext y
  exact (Cert.Spec.denseAt_eq_edgeAt _ rgN cgN _ _ _ _ _ _ hx hwm hwlv hew (y 0) (y 1)).symm

end Agree

/-! ## The claims -/

/-- Both idealized programs run; the kernel's result array is what its pipeline leaves, the reference's is its result
    term of arguments that agree, and the two are one array (`results_agree`); the scalar beside it is the zero constant
    in both. -/
theorem algebraic : Cert.algebraic_KernelIdeal_ReferenceIdeal := by
  intro m ρ m' ρ' hpre hagree
  refine ⟨fun c => (Cert.Proof.KI.dats (F := Ideal) m 0 c).arrAt 3 Cert.KernelIdeal.cfg0.N,
    fun c => constant (F := Ideal) Cert.KernelIdeal.S_ .f32 0x00000000#32, ?_, ?_⟩
  · refine (θ_run Cert.KernelIdeal.defs _ _).mono (fun r h c => ?_) (Cert.Proof.KI.run_main (F := Ideal) m ρ)
    exact ⟨(h c).1 3,
      ((h c).2 Cert.KernelIdeal.main_cst_3 (Pipeline.mem_restRefs_of Cert.KernelIdeal.main_cst_3 (by decide) (by decide))).trans
        (Cert.Proof.KI.Value.tail_cst m c),
      ((h c).2 Cert.KernelIdeal.main_arg0 (Pipeline.mem_restRefs_of Cert.KernelIdeal.main_arg0 (by decide) (by decide))).trans (Cert.KernelIdeal.Gen.W_main_arg0 m (Cert.Proof.KI.dats m) c),
      ((h c).2 Cert.KernelIdeal.main_arg1 (Pipeline.mem_restRefs_of Cert.KernelIdeal.main_arg1 (by decide) (by decide))).trans (Cert.KernelIdeal.Gen.W_main_arg1 m (Cert.Proof.KI.dats m) c),
      ((h c).2 Cert.KernelIdeal.main_arg2 (Pipeline.mem_restRefs_of Cert.KernelIdeal.main_arg2 (by decide) (by decide))).trans (Cert.KernelIdeal.Gen.W_main_arg2 m (Cert.Proof.KI.dats m) c),
      ((h c).2 Cert.KernelIdeal.main_arg3 (Pipeline.mem_restRefs_of Cert.KernelIdeal.main_arg3 (by decide) (by decide))).trans (Cert.KernelIdeal.Gen.W_main_arg3 m (Cert.Proof.KI.dats m) c),
      ((h c).2 Cert.KernelIdeal.main_arg4 (Pipeline.mem_restRefs_of Cert.KernelIdeal.main_arg4 (by decide) (by decide))).trans (Cert.KernelIdeal.Gen.W_main_arg4 m (Cert.Proof.KI.dats m) c),
      ((h c).2 Cert.KernelIdeal.main_arg5 (Pipeline.mem_restRefs_of Cert.KernelIdeal.main_arg5 (by decide) (by decide))).trans (Cert.KernelIdeal.Gen.W_main_arg5 m (Cert.Proof.KI.dats m) c),
      ((h c).2 Cert.KernelIdeal.main_arg6 (Pipeline.mem_restRefs_of Cert.KernelIdeal.main_arg6 (by decide) (by decide))).trans (Cert.KernelIdeal.Gen.W_main_arg6 m (Cert.Proof.KI.dats m) c),
      ((h c).2 Cert.KernelIdeal.main_arg7 (Pipeline.mem_restRefs_of Cert.KernelIdeal.main_arg7 (by decide) (by decide))).trans (Cert.KernelIdeal.Gen.W_main_arg7 m (Cert.Proof.KI.dats m) c),
      ((h c).2 Cert.KernelIdeal.main_arg8 (Pipeline.mem_restRefs_of Cert.KernelIdeal.main_arg8 (by decide) (by decide))).trans (Cert.KernelIdeal.Gen.W_main_arg8 m (Cert.Proof.KI.dats m) c)⟩
  · refine (θ_run Cert.ReferenceIdeal.defs _ _).mono (fun r h c => ⟨(h c).1.trans ?_, (h c).2.1, (h c).2.2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact results_agree m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
